-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S_ : Shape := ⟨0, ![]⟩
abbrev S1x1x1 : Shape := ⟨3, ![1, 1, 1]⟩
abbrev S1x4096x3 : Shape := ⟨3, ![1, 4096, 3]⟩
abbrev S1x3x4096 : Shape := ⟨3, ![1, 3, 4096]⟩
abbrev S3x4096 : Shape := ⟨2, ![3, 4096]⟩
abbrev S4096 : Shape := ⟨1, ![4096]⟩
abbrev S1x4096 : Shape := ⟨2, ![1, 4096]⟩
abbrev S1x2048x3 : Shape := ⟨3, ![1, 2048, 3]⟩
abbrev S2048x3 : Shape := ⟨2, ![2048, 3]⟩
abbrev S2048 : Shape := ⟨1, ![2048]⟩
abbrev S2048x1 : Shape := ⟨2, ![2048, 1]⟩
abbrev S2048x4096 : Shape := ⟨2, ![2048, 4096]⟩
abbrev S2048x2048 : Shape := ⟨2, ![2048, 2048]⟩
abbrev S2048x1024 : Shape := ⟨2, ![2048, 1024]⟩
abbrev S2048x512 : Shape := ⟨2, ![2048, 512]⟩
abbrev S2048x256 : Shape := ⟨2, ![2048, 256]⟩
abbrev S2048x128 : Shape := ⟨2, ![2048, 128]⟩
abbrev S128x2048 : Shape := ⟨2, ![128, 2048]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S1024x4096 : Shape := ⟨2, ![1024, 4096]⟩
abbrev S512x4096 : Shape := ⟨2, ![512, 4096]⟩
abbrev S256x4096 : Shape := ⟨2, ![256, 4096]⟩
abbrev S128x4096 : Shape := ⟨2, ![128, 4096]⟩
abbrev S64x4096 : Shape := ⟨2, ![64, 4096]⟩
abbrev S32x4096 : Shape := ⟨2, ![32, 4096]⟩
abbrev S16x4096 : Shape := ⟨2, ![16, 4096]⟩
abbrev S8x4096 : Shape := ⟨2, ![8, 4096]⟩
abbrev S1 : Shape := ⟨1, ![1]⟩
abbrev S1x1 : Shape := ⟨2, ![1, 1]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S_, .f32⟩
  | .hbm, ⟨4, _⟩ => ⟨S4x3x4096, .f32⟩
  | .hbm, ⟨5, _⟩ => ⟨S4x3x4096, .f32⟩
  | .hbm, ⟨6, _⟩ => ⟨S1x1x1, .f32⟩
  | .hbm, ⟨7, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v156 : BitVec 1 := Scalar.cmpi .eq arg0 c0_i32
  let v157 : BitVec 32 := Scalar.extui v156
  let c0_i32_23 : BitVec 32 := 0#32
  let v158 : BitVec 1 := Scalar.cmpi .ne v157 c0_i32_23
  v158

def k0_cond2 (i : grid0.Coords) : BitVec 1 :=
  let arg0 : BitVec 32 := BitVec.ofNat 32 (i 0).val
  let c0_i32_24 : BitVec 32 := 0#32
  let v159 : BitVec 1 := Scalar.cmpi .ne arg0 c0_i32_24
  let v160 : BitVec 32 := Scalar.extui v159
  let c0_i32_25 : BitVec 32 := 0#32
  let v161 : BitVec 1 := Scalar.cmpi .ne v160 c0_i32_25
  v161

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S4x4096x3_S4x3x4096_0_2_1 : S4x4096x3.Transposes [0, 2, 1] S4x3x4096
  bcast_S_S4x3x4096 : S_.BroadcastsInDim S4x3x4096 (![] : Fin 0 → Fin S4x3x4096.rank)
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  inb_S1x4096x3_S1x2048x3_0_0_0 : ∀ a, (![0, 0, 0] : Fin 3 → Nat) a + S1x2048x3.size a ≤ S1x4096x3.size a
  h_S1x2048x3 : 0 < S1x2048x3.numel
  shapeCasts_S1x2048x3_S2048x3 : S1x2048x3.ShapeCasts S2048x3
  reduces_S2048x3_S2048 : S2048x3.Reduces [1] S2048
  shapeCasts_S2048_S2048x1 : S2048.ShapeCasts S2048x1
  broadcasts_S2048x1_S2048x4096 : S2048x1.Broadcasts S2048x4096
  broadcasts_S1x4096_S2048x4096 : S1x4096.Broadcasts S2048x4096
  slices_S2048x4096_o0_0_S2048x2048 : S2048x4096.Slices ![0, 0] S2048x2048
  slices_S2048x4096_o0_2048_S2048x2048 : S2048x4096.Slices ![0, 2048] S2048x2048
  slices_S2048x2048_o0_0_S2048x1024 : S2048x2048.Slices ![0, 0] S2048x1024
  slices_S2048x2048_o0_1024_S2048x1024 : S2048x2048.Slices ![0, 1024] S2048x1024
  slices_S2048x1024_o0_0_S2048x512 : S2048x1024.Slices ![0, 0] S2048x512
  slices_S2048x1024_o0_512_S2048x512 : S2048x1024.Slices ![0, 512] S2048x512
  slices_S2048x512_o0_0_S2048x256 : S2048x512.Slices ![0, 0] S2048x256
  slices_S2048x512_o0_256_S2048x256 : S2048x512.Slices ![0, 256] S2048x256
  slices_S2048x256_o0_0_S2048x128 : S2048x256.Slices ![0, 0] S2048x128
  slices_S2048x256_o0_128_S2048x128 : S2048x256.Slices ![0, 128] S2048x128
  transposes_S2048x128_p1_0_S128x2048 : S2048x128.Transposes [1, 0] S128x2048
  reduces_S128x2048_S2048 : S128x2048.Reduces [0] S2048
  shapeCasts_S2048_S1x2048 : S2048.ShapeCasts S1x2048
  slices_S1x2048_o0_0_S1x1024 : S1x2048.Slices ![0, 0] S1x1024
  slices_S1x2048_o0_1024_S1x1024 : S1x2048.Slices ![0, 1024] S1x1024
  slices_S1x1024_o0_0_S1x512 : S1x1024.Slices ![0, 0] S1x512
  slices_S1x1024_o0_512_S1x512 : S1x1024.Slices ![0, 512] S1x512
  slices_S1x512_o0_0_S1x256 : S1x512.Slices ![0, 0] S1x256
  slices_S1x512_o0_256_S1x256 : S1x512.Slices ![0, 256] S1x256
  slices_S1x256_o0_0_S1x128 : S1x256.Slices ![0, 0] S1x128
  slices_S1x256_o0_128_S1x128 : S1x256.Slices ![0, 128] S1x128
  slices_S2048x4096_o0_0_S1024x4096 : S2048x4096.Slices ![0, 0] S1024x4096
  slices_S2048x4096_o1024_0_S1024x4096 : S2048x4096.Slices ![1024, 0] S1024x4096
  slices_S1024x4096_o0_0_S512x4096 : S1024x4096.Slices ![0, 0] S512x4096
  slices_S1024x4096_o512_0_S512x4096 : S1024x4096.Slices ![512, 0] S512x4096
  slices_S512x4096_o0_0_S256x4096 : S512x4096.Slices ![0, 0] S256x4096
  slices_S512x4096_o256_0_S256x4096 : S512x4096.Slices ![256, 0] S256x4096
  slices_S256x4096_o0_0_S128x4096 : S256x4096.Slices ![0, 0] S128x4096
  slices_S256x4096_o128_0_S128x4096 : S256x4096.Slices ![128, 0] S128x4096
  slices_S128x4096_o0_0_S64x4096 : S128x4096.Slices ![0, 0] S64x4096
  slices_S128x4096_o64_0_S64x4096 : S128x4096.Slices ![64, 0] S64x4096
  slices_S64x4096_o0_0_S32x4096 : S64x4096.Slices ![0, 0] S32x4096
  slices_S64x4096_o32_0_S32x4096 : S64x4096.Slices ![32, 0] S32x4096
  slices_S32x4096_o0_0_S16x4096 : S32x4096.Slices ![0, 0] S16x4096
  slices_S32x4096_o16_0_S16x4096 : S32x4096.Slices ![16, 0] S16x4096
  slices_S16x4096_o0_0_S8x4096 : S16x4096.Slices ![0, 0] S8x4096
  slices_S16x4096_o8_0_S8x4096 : S16x4096.Slices ![8, 0] S8x4096
  reduces_S8x4096_S4096 : S8x4096.Reduces [0] S4096
  inb_S1x4096x3_S1x2048x3_0_2048_0 : ∀ a, (![0, 2048, 0] : Fin 3 → Nat) a + S1x2048x3.size a ≤ S1x4096x3.size a
  reduces_S1x128_S1 : S1x128.Reduces [1] S1
  shapeCasts_S1_S1x1 : S1.ShapeCasts S1x1
  reduces_S1x4096_S1 : S1x4096.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S1x1x1_S_ : S1x1x1.ShapeCasts S_
  dot_S2048x3_S3x4096_S2048x4096_1_0_0_1_n_n_wf : DotDims.WF S2048x3 S3x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

def dot_S2048x3_S3x4096_S2048x4096_1_0_0_1_n_n : DotDims S2048x3 S3x4096 S2048x4096 where
  lhsContracting := [1]
  rhsContracting := [0]
  lhsNonContracting := [0]
  rhsNonContracting := [1]
  lhsBatch := []
  rhsBatch := []
  wf := dot_S2048x3_S3x4096_S2048x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.KRun.lean ====
/-
  The kernel body run symbolically at one grid point, in each of its two control cases.

  The body reads its two input blocks, computes the point's contribution, and then either
  (first point) overwrites the one-element output block with it, or (later points) adds it to
  what the block already holds.  Each case's run records the list of pieces stored into the
  output block; the input blocks are handed back untouched.
-/
import proofs.«145196_g5248450036648_cont_9to1_m_1041_38_alg».proof.Proof.Gen.Kernel.Frame
import proofs.«145196_g5248450036648_cont_9to1_m_1041_38_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- The first branch is taken exactly when the grid coordinate is zero. -/
abbrev condFirst (i : grid0.Coords) : Prop := k0_cond1 i = 1#1
theorem condFirst_iff : ∀ t : Fin cfg0.N, condFirst (grid0.coords t) ↔ t.val % 4 = 0 :=
  (by decide +kernel : ∀ t : Fin grid0.N, condFirst (grid0.coords t) ↔ t.val % 4 = 0)

/-- The second branch is taken exactly when the grid coordinate is not zero. -/
abbrev condRest (i : grid0.Coords) : Prop := k0_cond2 i = 1#1
theorem condRest_iff : ∀ t : Fin cfg0.N, condRest (grid0.coords t) ↔ 1 ≤ t.val :=
  (by decide +kernel : ∀ t : Fin grid0.N, condRest (grid0.coords t) ↔ 1 ≤ t.val)

/-! ## No window is ever idle: at every point one of the two branches stores into the output block -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The staging buffers the body is called with at a point -/

abbrev st0 (t : Fin cfg0.N) : Memref sig .tc .vmem S1x4096x3 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x3x4096 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1x1x1 .f32 := win0_2.stage (cfg0.slots t 2)
abbrev wh2 (t : Fin cfg0.N) : (st2 t).IsWhole := hstage0_2 ((cfg0.slots t 2).cast nbuf0_2)

/-- A fixed view of the output block's shape, through which stored pieces are read back. -/
abbrev outView : View sig .tc .vmem S1x1x1 .f32 := (Memref.whole cc0_stg2_0 : Memref sig .tc .vmem S1x1x1 .f32).view

/-! ## The body's run in each case -/

set_option maxHeartbeats 1000000 in
/-- First point: whatever the output block held is overwritten.  The pieces stored are the witness. -/
noncomputable def runFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton, k0_part3_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- Later points: the output block holds `xo` on entry and the body adds to it. -/
noncomputable def runRest (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Body

end
-- ==== Proof.KFrame.lean ====
/-
  The frame of the program around its one kernel region, with the output block's contents named
  at every grid point.

  The output block is a single number.  At the first grid point the body overwrites it with that
  point's contribution; at each later point the body adds its contribution to what the block
  holds.  The block is written back to its array only after the last point, so between points the
  staging buffer keeps the running total: `totalAt` below is that total, by recursion on the point.
-/
import proofs.«145196_g5248450036648_cont_9to1_m_1041_38_alg».proof.Proof.KRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is idle at no setting of the grid coordinate: one of the two branches always stores. -/
theorem live2_all : ∀ i : grid0.Coords, cfg0.idle 2 i = false := by decide +kernel

/-! ## What each case leaves in the output block -/

/-- The first case's single store covers the whole one-element block. -/
theorem coverFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) (y : S1x1x1.Idx) :
    ∃ pc ∈ (runFirst c i arg1 harg1 arg2 harg2 arg3 harg3 hc0 hc1 x0 x1).1, y ∈ pc.1.set :=
  View.cover_of_tiledL (runFirst c i arg1 harg1 arg2 harg2 arg3 harg3 hc0 hc1 x0 x1).1 S1x1x1.size (by sl_kernel_rfl) y

/-- The block after the first case. -/
def outFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) : Vec F S1x1x1 .f32 :=
  outView.read (Elt F) (outView.writes (Elt F) outView.junk (runFirst c i arg1 harg1 arg2 harg2 arg3 harg3 hc0 hc1 x0 x1).1)

/-- The later case's single store covers the block as well. -/
theorem coverRest (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) (y : S1x1x1.Idx) :
    ∃ pc ∈ (runRest c i arg1 harg1 arg2 harg2 arg3 harg3 hc0 hc1 x0 x1 xo).1, y ∈ pc.1.set :=
  View.cover_of_tiledL (runRest c i arg1 harg1 arg2 harg2 arg3 harg3 hc0 hc1 x0 x1 xo).1 S1x1x1.size (by sl_kernel_rfl) y

/-- The block after a later case, which found `xo` in it. -/
def outRest (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) : Vec F S1x1x1 .f32 :=
  outView.read (Elt F) (outView.writes (Elt F) outView.junk (runRest c i arg1 harg1 arg2 harg2 arg3 harg3 hc0 hc1 x0 x1 xo).1)

/-! ## The running total, point by point -/

/-- What the output block holds after the body at position `n`. -/
def totalAt (c : Dev nD) : (n : ℕ) → n < cfg0.N → Vec F S1x1x1 .f32
  | 0, hn => outFirst c (grid0.coords ⟨0, hn⟩) (st0 ⟨0, hn⟩) (wh0 ⟨0, hn⟩) (st1 ⟨0, hn⟩) (wh1 ⟨0, hn⟩) (st2 ⟨0, hn⟩) (wh2 ⟨0, hn⟩)
      ((condFirst_iff ⟨0, hn⟩).mpr (Nat.zero_mod _)) (fun h => absurd ((condRest_iff ⟨0, hn⟩).mp h) (Nat.not_succ_le_zero 0))
      (iblk m c 0 ⟨0, hn⟩) (iblk m c 1 ⟨0, hn⟩)
  | n + 1, hn =>
      outRest c (grid0.coords ⟨n + 1, hn⟩) (st0 ⟨n + 1, hn⟩) (wh0 ⟨n + 1, hn⟩) (st1 ⟨n + 1, hn⟩) (wh1 ⟨n + 1, hn⟩) (st2 ⟨n + 1, hn⟩) (wh2 ⟨n + 1, hn⟩)
        (fun h => by have := (condFirst_iff ⟨n + 1, hn⟩).mp h; have hN : n + 1 < 4 := lt_of_lt_of_eq hn (show cfg0.N = 4 from N_0); dsimp only at this; omega)
        ((condRest_iff ⟨n + 1, hn⟩).mpr (Nat.succ_le_succ (Nat.zero_le n)))
        (iblk m c 0 ⟨n + 1, hn⟩) (iblk m c 1 ⟨n + 1, hn⟩) (totalAt c n (Nat.lt_of_succ_lt hn))

theorem totalAt_first (c : Dev nD) (t : Fin cfg0.N) (h0 : t.val = 0) (hc0 : condFirst (grid0.coords t)) (hc1 : ¬condRest (grid0.coords t)) :
    totalAt m c t.val t.isLt = outFirst c (grid0.coords t) (st0 t) (wh0 t) (st1 t) (wh1 t) (st2 t) (wh2 t) hc0 hc1 (iblk m c 0 t) (iblk m c 1 t) := by
  obtain ⟨n, hn⟩ := t
  cases n with
  | zero => rfl
  | succ n => exact absurd h0 (Nat.succ_ne_zero n)

theorem totalAt_rest (c : Dev nD) (t : Fin cfg0.N) (h0 : t.val ≠ 0) (hc0 : ¬condFirst (grid0.coords t)) (hc1 : condRest (grid0.coords t)) :
    totalAt m c t.val t.isLt = outRest c (grid0.coords t) (st0 t) (wh0 t) (st1 t) (wh1 t) (st2 t) (wh2 t) hc0 hc1 (iblk m c 0 t) (iblk m c 1 t)
      (totalAt m c (t.val - 1) (Nat.lt_of_le_of_lt (Nat.sub_le _ _) t.isLt)) := by
  obtain ⟨n, hn⟩ := t
  cases n with
  | zero => exact absurd rfl h0
  | succ n => rfl

/-! ## The proof data of the pipeline -/

/-- The arrays as the region finds them; after the body each input's buffer at its block and the
    output's at the running total. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => totalAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = totalAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first point the output's staging buffer still holds what the point before left: it is
    never fetched, it is written back only after the last point, and it is never idle. -/
theorem before2 (c : Dev nD) (t : Fin cfg0.N) (h0 : t.val ≠ 0) (d) :
    (dats m 0 c).before 2 t d = totalAt m c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    live2_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0 t) fullShare ((dats m 0 c).after 0 t) from by
      unfold Dat.leavesExact; rw [live0 t],
    show (dats m 0 c).leavesExact 1 t = owns (c : Thread nD τ) (st1 t) fullShare ((dats m 0 c).after 1 t) from by
      unfold Dat.leavesExact; rw [live1 t],
    show (dats m 0 c).leavesExact 2 t = owns (c : Thread nD τ) (st2 t) fullShare ((dats m 0 c).after 2 t) from by
      unfold Dat.leavesExact; rw [live2 t],
    after0, after1, after2]
  have hN : t.val < 4 := lt_of_lt_of_eq t.isLt (show cfg0.N = 4 from N_0)
  by_cases h0 : t.val = 0
  · have hc0 : condFirst (grid0.coords t) := (condFirst_iff t).mpr (by omega)
    have hc1 : ¬condRest (grid0.coords t) := fun h => by have := (condRest_iff t).mp h; omega
    rw [totalAt_first m c t h0 hc0 hc1]
    unfold outFirst
    iintro ⟨HΦ, Ho, ⟨%d0, H0⟩, ⟨%d1, H1⟩, ⟨%d2, H2⟩⟩
    iapply ((runFirst c (grid0.coords t) _ _ _ _ _ _ hc0 hc1 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · have hc0 : ¬condFirst (grid0.coords t) := fun h => by have := (condFirst_iff t).mp h; omega
    have hc1 : condRest (grid0.coords t) := (condRest_iff t).mpr (by omega)
    rw [totalAt_rest m c t h0 hc0 hc1]
    simp only [before2 m c t h0]
    unfold outRest
    iintro ⟨HΦ, Ho, ⟨%d0, H0⟩, ⟨%d1, H1⟩, ⟨%d2, H2⟩⟩
    iapply ((runRest c (grid0.coords t) _ _ _ _ _ _ hc0 hc1 (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; afterwards every array of the pipeline holds
    what the proof data say, and every other buffer what the host lines after the region leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIRun.lean ====
/-
  The kernel body run symbolically at one grid point, in each of its two control cases.

  The body reads its two input blocks, computes the point's contribution, and then either
  (first point) overwrites the one-element output block with it, or (later points) adds it to
  what the block already holds.  Each case's run records the list of pieces stored into the
  output block; the input blocks are handed back untouched.
-/
import proofs.«145196_g5248450036648_cont_9to1_m_1041_38_alg».proof.Proof.Gen.KernelIdeal.Frame
import proofs.«145196_g5248450036648_cont_9to1_m_1041_38_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- The first branch is taken exactly when the grid coordinate is zero. -/
abbrev condFirst (i : grid0.Coords) : Prop := k0_cond1 i = 1#1
theorem condFirst_iff : ∀ t : Fin cfg0.N, condFirst (grid0.coords t) ↔ t.val % 4 = 0 :=
  (by decide +kernel : ∀ t : Fin grid0.N, condFirst (grid0.coords t) ↔ t.val % 4 = 0)

/-- The second branch is taken exactly when the grid coordinate is not zero. -/
abbrev condRest (i : grid0.Coords) : Prop := k0_cond2 i = 1#1
theorem condRest_iff : ∀ t : Fin cfg0.N, condRest (grid0.coords t) ↔ 1 ≤ t.val :=
  (by decide +kernel : ∀ t : Fin grid0.N, condRest (grid0.coords t) ↔ 1 ≤ t.val)

/-! ## No window is ever idle: at every point one of the two branches stores into the output block -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The staging buffers the body is called with at a point -/

abbrev st0 (t : Fin cfg0.N) : Memref sig .tc .vmem S1x4096x3 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x3x4096 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1x1x1 .f32 := win0_2.stage (cfg0.slots t 2)
abbrev wh2 (t : Fin cfg0.N) : (st2 t).IsWhole := hstage0_2 ((cfg0.slots t 2).cast nbuf0_2)

/-- A fixed view of the output block's shape, through which stored pieces are read back. -/
abbrev outView : View sig .tc .vmem S1x1x1 .f32 := (Memref.whole cc0_stg2_0 : Memref sig .tc .vmem S1x1x1 .f32).view

/-! ## The body's run in each case -/

set_option maxHeartbeats 1000000 in
/-- First point: whatever the output block held is overwritten.  The pieces stored are the witness. -/
noncomputable def runFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton, k0_part3_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- Later points: the output block holds `xo` on entry and the body adds to it. -/
noncomputable def runRest (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Body

end
-- ==== Proof.KIFrame.lean ====
/-
  The frame of the program around its one kernel region, with the output block's contents named
  at every grid point.

  The output block is a single number.  At the first grid point the body overwrites it with that
  point's contribution; at each later point the body adds its contribution to what the block
  holds.  The block is written back to its array only after the last point, so between points the
  staging buffer keeps the running total: `totalAt` below is that total, by recursion on the point.
-/
import proofs.«145196_g5248450036648_cont_9to1_m_1041_38_alg».proof.Proof.KIRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is idle at no setting of the grid coordinate: one of the two branches always stores. -/
theorem live2_all : ∀ i : grid0.Coords, cfg0.idle 2 i = false := by decide +kernel

/-! ## What each case leaves in the output block -/

/-- The first case's single store covers the whole one-element block. -/
theorem coverFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) (y : S1x1x1.Idx) :
    ∃ pc ∈ (runFirst c i arg1 harg1 arg2 harg2 arg3 harg3 hc0 hc1 x0 x1).1, y ∈ pc.1.set :=
  View.cover_of_tiledL (runFirst c i arg1 harg1 arg2 harg2 arg3 harg3 hc0 hc1 x0 x1).1 S1x1x1.size (by sl_kernel_rfl) y

/-- The block after the first case. -/
def outFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) : Vec F S1x1x1 .f32 :=
  outView.read (Elt F) (outView.writes (Elt F) outView.junk (runFirst c i arg1 harg1 arg2 harg2 arg3 harg3 hc0 hc1 x0 x1).1)

/-- The later case's single store covers the block as well. -/
theorem coverRest (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) (y : S1x1x1.Idx) :
    ∃ pc ∈ (runRest c i arg1 harg1 arg2 harg2 arg3 harg3 hc0 hc1 x0 x1 xo).1, y ∈ pc.1.set :=
  View.cover_of_tiledL (runRest c i arg1 harg1 arg2 harg2 arg3 harg3 hc0 hc1 x0 x1 xo).1 S1x1x1.size (by sl_kernel_rfl) y

/-- The block after a later case, which found `xo` in it. -/
def outRest (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) : Vec F S1x1x1 .f32 :=
  outView.read (Elt F) (outView.writes (Elt F) outView.junk (runRest c i arg1 harg1 arg2 harg2 arg3 harg3 hc0 hc1 x0 x1 xo).1)

/-! ## The running total, point by point -/

/-- What the output block holds after the body at position `n`. -/
def totalAt (c : Dev nD) : (n : ℕ) → n < cfg0.N → Vec F S1x1x1 .f32
  | 0, hn => outFirst c (grid0.coords ⟨0, hn⟩) (st0 ⟨0, hn⟩) (wh0 ⟨0, hn⟩) (st1 ⟨0, hn⟩) (wh1 ⟨0, hn⟩) (st2 ⟨0, hn⟩) (wh2 ⟨0, hn⟩)
      ((condFirst_iff ⟨0, hn⟩).mpr (Nat.zero_mod _)) (fun h => absurd ((condRest_iff ⟨0, hn⟩).mp h) (Nat.not_succ_le_zero 0))
      (iblk m c 0 ⟨0, hn⟩) (iblk m c 1 ⟨0, hn⟩)
  | n + 1, hn =>
      outRest c (grid0.coords ⟨n + 1, hn⟩) (st0 ⟨n + 1, hn⟩) (wh0 ⟨n + 1, hn⟩) (st1 ⟨n + 1, hn⟩) (wh1 ⟨n + 1, hn⟩) (st2 ⟨n + 1, hn⟩) (wh2 ⟨n + 1, hn⟩)
        (fun h => by have := (condFirst_iff ⟨n + 1, hn⟩).mp h; have hN : n + 1 < 4 := lt_of_lt_of_eq hn (show cfg0.N = 4 from N_0); dsimp only at this; omega)
        ((condRest_iff ⟨n + 1, hn⟩).mpr (Nat.succ_le_succ (Nat.zero_le n)))
        (iblk m c 0 ⟨n + 1, hn⟩) (iblk m c 1 ⟨n + 1, hn⟩) (totalAt c n (Nat.lt_of_succ_lt hn))

theorem totalAt_first (c : Dev nD) (t : Fin cfg0.N) (h0 : t.val = 0) (hc0 : condFirst (grid0.coords t)) (hc1 : ¬condRest (grid0.coords t)) :
    totalAt m c t.val t.isLt = outFirst c (grid0.coords t) (st0 t) (wh0 t) (st1 t) (wh1 t) (st2 t) (wh2 t) hc0 hc1 (iblk m c 0 t) (iblk m c 1 t) := by
  obtain ⟨n, hn⟩ := t
  cases n with
  | zero => rfl
  | succ n => exact absurd h0 (Nat.succ_ne_zero n)

theorem totalAt_rest (c : Dev nD) (t : Fin cfg0.N) (h0 : t.val ≠ 0) (hc0 : ¬condFirst (grid0.coords t)) (hc1 : condRest (grid0.coords t)) :
    totalAt m c t.val t.isLt = outRest c (grid0.coords t) (st0 t) (wh0 t) (st1 t) (wh1 t) (st2 t) (wh2 t) hc0 hc1 (iblk m c 0 t) (iblk m c 1 t)
      (totalAt m c (t.val - 1) (Nat.lt_of_le_of_lt (Nat.sub_le _ _) t.isLt)) := by
  obtain ⟨n, hn⟩ := t
  cases n with
  | zero => exact absurd rfl h0
  | succ n => rfl

/-! ## The proof data of the pipeline -/

/-- The arrays as the region finds them; after the body each input's buffer at its block and the
    output's at the running total. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => totalAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = totalAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first point the output's staging buffer still holds what the point before left: it is
    never fetched, it is written back only after the last point, and it is never idle. -/
theorem before2 (c : Dev nD) (t : Fin cfg0.N) (h0 : t.val ≠ 0) (d) :
    (dats m 0 c).before 2 t d = totalAt m c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    live2_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0 t) fullShare ((dats m 0 c).after 0 t) from by
      unfold Dat.leavesExact; rw [live0 t],
    show (dats m 0 c).leavesExact 1 t = owns (c : Thread nD τ) (st1 t) fullShare ((dats m 0 c).after 1 t) from by
      unfold Dat.leavesExact; rw [live1 t],
    show (dats m 0 c).leavesExact 2 t = owns (c : Thread nD τ) (st2 t) fullShare ((dats m 0 c).after 2 t) from by
      unfold Dat.leavesExact; rw [live2 t],
    after0, after1, after2]
  have hN : t.val < 4 := lt_of_lt_of_eq t.isLt (show cfg0.N = 4 from N_0)
  by_cases h0 : t.val = 0
  · have hc0 : condFirst (grid0.coords t) := (condFirst_iff t).mpr (by omega)
    have hc1 : ¬condRest (grid0.coords t) := fun h => by have := (condRest_iff t).mp h; omega
    rw [totalAt_first m c t h0 hc0 hc1]
    unfold outFirst
    iintro ⟨HΦ, Ho, ⟨%d0, H0⟩, ⟨%d1, H1⟩, ⟨%d2, H2⟩⟩
    iapply ((runFirst c (grid0.coords t) _ _ _ _ _ _ hc0 hc1 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · have hc0 : ¬condFirst (grid0.coords t) := fun h => by have := (condFirst_iff t).mp h; omega
    have hc1 : condRest (grid0.coords t) := (condRest_iff t).mpr (by omega)
    rw [totalAt_rest m c t h0 hc0 hc1]
    simp only [before2 m c t h0]
    unfold outRest
    iintro ⟨HΦ, Ho, ⟨%d0, H0⟩, ⟨%d1, H1⟩, ⟨%d2, H2⟩⟩
    iapply ((runRest c (grid0.coords t) _ _ _ _ _ _ hc0 hc1 (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverRest c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; afterwards every array of the pipeline holds
    what the proof data say, and every other buffer what the host lines after the region leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KIPieces.lean ====
/-
  What the body's stores leave in the output block, as a pure function of the two input blocks.

  One grid point's contribution is computed from the second cloud's whole block and the two halves
  (rows 0-2047 and 2048-4095) of the first cloud's block; the first case stores it, the later case
  stores the old contents plus it.
-/
import proofs.«145196_g5248450036648_cont_9to1_m_1041_38_alg».proof.Proof.KIFrame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros3 : (![0, 0, 0] : Fin 3 → Nat) = fun _ => 0 := funext fun a => by fin_cases a <;> rfl

/-- Rows 0 to 2047 of the first cloud's block. -/
abbrev loRows (x0 : Vec F S1x4096x3 .f32) : Vec F S1x2048x3 .f32 :=
  View.ld x0 (Rect.unit ![0, 0, 0] ![1, 2048, 3] inb_S1x4096x3_S1x2048x3_0_0_0)
/-- Rows 2048 to 4095 of the first cloud's block. -/
abbrev hiRows (x0 : Vec F S1x4096x3 .f32) : Vec F S1x2048x3 .f32 :=
  View.ld x0 (Rect.unit ![0, 2048, 0] ![1, 2048, 3] inb_S1x4096x3_S1x2048x3_0_2048_0)

/-- One grid point's contribution: the scaled sum of nearest squared distances from the first cloud's
    points plus the scaled sum of nearest squared distances from the second cloud's points. -/
def pointPay (x0 : Vec F S1x4096x3 .f32) (x1 : Vec F S1x3x4096 .f32) : FVec F S1x1 .f32 :=
  k0_pay1
    (k0_pay13 (k0_pay9 (k0_pay7 x1 (loRows x0)) (k0_pay8 x1 (loRows x0))) (k0_pay12 (k0_pay4 x1) (k0_pay5 x1) (hiRows x0)))
    (k0_pay14 (k0_pay10 (k0_pay6 x1 (loRows x0))) (k0_pay11 (k0_pay4 x1) (k0_pay5 x1) (hiRows x0)))
    (FloatOps.ofBits .f32 0x38800000#32)

theorem outFirst_eq (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : condFirst i) (hc1 : ¬condRest i) (x0 : Vec F S1x4096x3 .f32) (x1 : Vec F S1x3x4096 .f32) :
    outFirst c i arg1 harg1 arg2 harg2 arg3 harg3 hc0 hc1 x0 x1
      = shapeCast S1x1x1 (pointPay x0 x1) shapeCasts_S1x1_S1x1x1 := by
  unfold outFirst
  rw [View.read_writes_eq_canon _ _ _ (coverFirst c i arg1 harg1 arg2 harg2 arg3 harg3 hc0 hc1 x0 x1)]
  unfold runFirst
  dsimp only
  sl_unfold_words
  rw [View.canon_unit_zero zeros3]
  simp only [View.readAt_eq_ld, harg1.read_unread, harg2.read_unread, View.ld_unit_zero (S := S1x3x4096) zeros3]
  rfl

theorem outRest_eq (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬condFirst i) (hc1 : condRest i) (x0 : Vec F S1x4096x3 .f32) (x1 : Vec F S1x3x4096 .f32) (xo : Vec F S1x1x1 .f32) :
    outRest c i arg1 harg1 arg2 harg2 arg3 harg3 hc0 hc1 x0 x1 xo
      = shapeCast S1x1x1 (addf (shapeCast S1x1 xo shapeCasts_S1x1x1_S1x1) (pointPay x0 x1)) shapeCasts_S1x1_S1x1x1 := by
  unfold outRest
  rw [View.read_writes_eq_canon _ _ _ (coverRest c i arg1 harg1 arg2 harg2 arg3 harg3 hc0 hc1 x0 x1 xo)]
  unfold runRest
  dsimp only
  sl_unfold_words
  rw [View.canon_unit_zero zeros3]
  simp only [View.readAt_eq_ld, harg1.read_unread, harg2.read_unread, harg3.read_unread,
    View.ld_unit_zero (S := S1x3x4096) zeros3, View.ld_unit_zero (S := S1x1x1) zeros3]
  rfl

end Cert.KernelIdeal.Body

end
-- ==== Proof.Spec.lean ====
/-
  The chamfer distance of two batched point clouds, as the kernel computes it and as the reference
  computes it, over the extended reals; and that the two agree on finite inputs.

  For one batch the kernel works from the first cloud `u` (N points in 3-space) and from `w`, the
  second cloud transposed and scaled by -2.  Its squared-distance matrix is
  `(|u_n|² + ¼ |w_m|²) + u_n · w_m`, which for `w = -2 x` is `|u_n|² + |x_m|² - 2 u_n · x_m`, the
  reference's.  Both then take, for every point of either cloud, the least squared distance to the
  other cloud clamped below at zero, sum, and scale by 1/16384; the kernel clamps after the minimum
  and scales each batch before adding, the reference clamps before the minimum and divides the whole
  sum.  On real inputs these are the same number.
-/
import Idealize.ShloMosaic.PureOps.Ideal
import Idealize.ShloMosaic.PureOps.Ideal.Laws
import Mathlib.Data.EReal.Operations
import Mathlib.Data.Finset.Lattice.Fold
import Mathlib.Algebra.BigOperators.Fin
import Mathlib.Tactic.Ring
import Mathlib.Tactic.NormNum
import Mathlib.Tactic.Abel

noncomputable section

open scoped BigOperators

namespace Cert.Chamfer

open Idealize.ShloMosaic

/-! ## The float literals of the two programs -/

/-- `0.25` -/
abbrev qtr : EReal := Ideal.ofBits .f32 0x3E800000#32
/-- `-2.0` -/
abbrev negTwo : EReal := Ideal.ofBits .f32 0xC0000000#32
/-- `2.0` -/
abbrev two : EReal := Ideal.ofBits .f32 0x40000000#32
/-- `2⁻¹⁴` -/
abbrev invN : EReal := Ideal.ofBits .f32 0x38800000#32
/-- `16384.0` -/
abbrev bigN : EReal := Ideal.ofBits .f32 0x46800000#32

theorem qtr_eq : qtr = ((1 / 4 : ℝ) : EReal) := by
  simp [Ideal.ofBits, Ideal.ieee, -EReal.coe_mul]; norm_num
theorem negTwo_eq : negTwo = ((-2 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem invN_eq : invN = ((1 / 16384 : ℝ) : EReal) := by
  simp [Ideal.ofBits, Ideal.ieee, -EReal.coe_mul]; norm_num
theorem bigN_eq : bigN = ((16384 : ℝ) : EReal) := by
  simp [Ideal.ofBits, Ideal.ieee, -EReal.coe_mul]; norm_num
/-- The pattern of `+∞` denotes the top element. -/
theorem inf_eq_top : Ideal.ofBits .f32 0x7F800000#32 = (⊤ : EReal) := by
  simp [Ideal.ofBits, Ideal.ieee]

variable {N M : ℕ}

/-! ## The kernel's side, one batch -/

/-- The kernel's squared-distance matrix of one batch. -/
def accK (u : Fin N → Fin 3 → EReal) (w : Fin 3 → Fin M → EReal) (n : Fin N) (m : Fin M) : EReal :=
  ((∑ d : Fin 3, u n d * u n d) + qtr * ∑ d : Fin 3, w d m * w d m) + ∑ d : Fin 3, u n d * w d m

/-- One batch's contribution. -/
def pointK (u : Fin N → Fin 3 → EReal) (w : Fin 3 → Fin M → EReal) : EReal :=
  (∑ n : Fin N, max (Finset.univ.inf fun m : Fin M => accK u w n m) 0) * invN
    + (∑ m : Fin M, max (Finset.univ.inf fun n : Fin N => accK u w n m) 0) * invN

/-- The four batches, added in the order the grid visits them. -/
def totalK (u : Fin 4 → Fin N → Fin 3 → EReal) (w : Fin 4 → Fin 3 → Fin M → EReal) : EReal :=
  ((pointK (u 0) (w 0) + pointK (u 1) (w 1)) + pointK (u 2) (w 2)) + pointK (u 3) (w 3)

/-! ## The reference's side -/

/-- The reference's clamped squared distance. -/
def distR (a : Fin 4 → Fin N → Fin 3 → EReal) (x : Fin 4 → Fin M → Fin 3 → EReal) (b : Fin 4) (n : Fin N) (m : Fin M) : EReal :=
  max ((((0 : EReal) + ∑ d : Fin 3, a b n d * a b n d) + ((0 : EReal) + ∑ d : Fin 3, x b m d * x b m d))
        - two * ∑ d : Fin 3, a b n d * x b m d) 0

/-- The reference's result: the two means added. -/
def totalR (a : Fin 4 → Fin N → Fin 3 → EReal) (x : Fin 4 → Fin M → Fin 3 → EReal) : EReal :=
  Ideal.div ((0 : EReal) + ∑ b : Fin 4, ∑ n : Fin N, Finset.univ.inf fun m : Fin M => distR a x b n m) bigN
    + Ideal.div ((0 : EReal) + ∑ b : Fin 4, ∑ m : Fin M, Finset.univ.inf fun n : Fin N => distR a x b n m) bigN

/-! ## The two agree on real inputs -/

/-- The real squared distance `|a_n|² + |x_m|² - 2 a_n · x_m` of point `n` of the first cloud and point `m`
of the second, in batch `b`. -/
private def sq (a : Fin 4 → Fin N → Fin 3 → ℝ) (x : Fin 4 → Fin M → Fin 3 → ℝ) (b : Fin 4) (n : Fin N)
    (m : Fin M) : ℝ :=
  ((∑ d : Fin 3, a b n d * a b n d) + ∑ d : Fin 3, x b m d * x b m d) - 2 * ∑ d : Fin 3, a b n d * x b m d

/-- On real inputs, with the second cloud scaled by `-2`, the kernel's matrix entry is the real squared
distance: `¼ · |-2 x|² = |x|²` and `a · (-2 x) = -2 a · x`. -/
private theorem accK_coe (a : Fin 4 → Fin N → Fin 3 → ℝ) (x : Fin 4 → Fin M → Fin 3 → ℝ) (b : Fin 4)
    (n : Fin N) (m : Fin M) :
    accK (fun n d => ((a b n d : ℝ) : EReal)) (fun d m => negTwo * ((x b m d : ℝ) : EReal)) n m
      = ((sq a x b n m : ℝ) : EReal) := by
  unfold accK sq
  rw [qtr_eq, negTwo_eq]
  simp only [Fin.sum_univ_three, ← EReal.coe_mul, ← EReal.coe_add]
  exact congrArg _ (by ring)

/-- On real inputs the reference's clamped entry is the real squared distance clamped below at zero. -/
private theorem distR_coe (a : Fin 4 → Fin N → Fin 3 → ℝ) (x : Fin 4 → Fin M → Fin 3 → ℝ) (b : Fin 4)
    (n : Fin N) (m : Fin M) :
    distR (fun b n d => ((a b n d : ℝ) : EReal)) (fun b m d => ((x b m d : ℝ) : EReal)) b n m
      = max ((sq a x b n m : ℝ) : EReal) 0 := by
  unfold distR sq
  rw [two_eq]
  simp only [Fin.sum_univ_three, zero_add]
  norm_cast

/-- Clamping below commutes with a finite minimum: `max (min_i f i) c = min_i (max (f i) c)`, the empty
minimum being `⊤` on both sides. -/
private theorem max_inf {ι : Type*} (s : Finset ι) (f : ι → EReal) (c : EReal) :
    max (s.inf f) c = s.inf fun i => max (f i) c :=
  Finset.inf_sup_distrib_right s f c

/-- One batch of the kernel, on real inputs, in the reference's terms. -/
private theorem pointK_coe (a : Fin 4 → Fin N → Fin 3 → ℝ) (x : Fin 4 → Fin M → Fin 3 → ℝ) (b : Fin 4) :
    pointK (fun n d => ((a b n d : ℝ) : EReal)) (fun d m => negTwo * ((x b m d : ℝ) : EReal))
      = (∑ n : Fin N, Finset.univ.inf fun m : Fin M =>
            distR (fun b n d => ((a b n d : ℝ) : EReal)) (fun b m d => ((x b m d : ℝ) : EReal)) b n m) * invN
        + (∑ m : Fin M, Finset.univ.inf fun n : Fin N =>
            distR (fun b n d => ((a b n d : ℝ) : EReal)) (fun b m d => ((x b m d : ℝ) : EReal)) b n m) * invN := by
  unfold pointK
  simp only [accK_coe, distR_coe, max_inf]

/-- A sum of minima of clamped terms is nonnegative. -/
private theorem sum_inf_nonneg {ι κ : Type*} [Fintype ι] [Fintype κ] (g : ι → κ → EReal)
    (h : ∀ i k, 0 ≤ g i k) : 0 ≤ ∑ i : ι, Finset.univ.inf fun k : κ => g i k :=
  Finset.sum_nonneg fun i _ => Finset.le_inf fun k _ => h i k

/-- Scaling each of four nonnegative pairs and adding them in order is scaling the two sums:
multiplication distributes over sums of nonnegative extended reals. -/
private theorem regroup (c s0 s1 s2 s3 t0 t1 t2 t3 : EReal) (hs0 : 0 ≤ s0) (hs1 : 0 ≤ s1) (hs2 : 0 ≤ s2)
    (hs3 : 0 ≤ s3) (ht0 : 0 ≤ t0) (ht1 : 0 ≤ t1) (ht2 : 0 ≤ t2) (ht3 : 0 ≤ t3) :
    (((s0 * c + t0 * c) + (s1 * c + t1 * c)) + (s2 * c + t2 * c)) + (s3 * c + t3 * c)
      = (s0 + s1 + s2 + s3) * c + (t0 + t1 + t2 + t3) * c := by
  rw [EReal.right_distrib_of_nonneg (add_nonneg (add_nonneg hs0 hs1) hs2) hs3,
    EReal.right_distrib_of_nonneg (add_nonneg hs0 hs1) hs2, EReal.right_distrib_of_nonneg hs0 hs1,
    EReal.right_distrib_of_nonneg (add_nonneg (add_nonneg ht0 ht1) ht2) ht3,
    EReal.right_distrib_of_nonneg (add_nonneg ht0 ht1) ht2, EReal.right_distrib_of_nonneg ht0 ht1]
  abel

/-- On real point clouds, the kernel's total over `w = -2 · xᵀ` is the reference's result. -/
theorem totalK_eq_totalR (a : Fin 4 → Fin N → Fin 3 → ℝ) (x : Fin 4 → Fin M → Fin 3 → ℝ) :
    totalK (fun b n d => ((a b n d : ℝ) : EReal)) (fun b d m => negTwo * ((x b m d : ℝ) : EReal))
      = totalR (fun b n d => ((a b n d : ℝ) : EReal)) (fun b m d => ((x b m d : ℝ) : EReal)) := by
  have hd : ∀ (b : Fin 4) (n : Fin N) (m : Fin M), 0 ≤ distR (fun b n d => ((a b n d : ℝ) : EReal))
      (fun b m d => ((x b m d : ℝ) : EReal)) b n m := fun b n m => le_max_right _ _
  unfold totalK totalR
  rw [pointK_coe a x 0, pointK_coe a x 1, pointK_coe a x 2, pointK_coe a x 3, bigN_eq,
    Ideal.div_coe (by norm_num), Ideal.div_coe (by norm_num), ← invN_eq, zero_add, zero_add,
    Fin.sum_univ_four, Fin.sum_univ_four]
  exact regroup invN _ _ _ _ _ _ _ _
    (sum_inf_nonneg _ fun n m => hd 0 n m) (sum_inf_nonneg _ fun n m => hd 1 n m)
    (sum_inf_nonneg _ fun n m => hd 2 n m) (sum_inf_nonneg _ fun n m => hd 3 n m)
    (sum_inf_nonneg _ fun m n => hd 0 n m) (sum_inf_nonneg _ fun m n => hd 1 n m)
    (sum_inf_nonneg _ fun m n => hd 2 n m) (sum_inf_nonneg _ fun m n => hd 3 n m)

end Cert.Chamfer

end
-- ==== Proof.LibHalving.lean ====
/-
  Folding a finite family in halves.

  A family indexed by `Fin (2 * h)` is split into its lower and upper halves; its sum is the sum over
  `Fin h` of the two halves added pointwise, and its infimum the infimum of the two halves' pointwise
  minimum.  Iterating this is how a reduction tree that repeatedly combines the two halves of a vector
  computes the reduction over the whole vector.  A family indexed by `Fin (k * h)` is likewise the
  family of its `k` strided sub-families.
-/
import Mathlib.Algebra.BigOperators.Fin
import Mathlib.Order.CompleteLattice.Finset
import Mathlib.Data.Fintype.BigOperators

open scoped BigOperators

namespace Cert.Halving

/-- The sum over `Fin (2 * h)` is the sum over `Fin h` of lower-half plus upper-half entries. -/
theorem sum_halve {M : Type*} [AddCommMonoid M] (h : ℕ) (f : Fin (2 * h) → M) :
    ∑ i, f i = ∑ i : Fin h, (f ⟨i.val, by omega⟩ + f ⟨i.val + h, by omega⟩) := by
  have e : 2 * h = h + h := two_mul h
  rw [Finset.sum_add_distrib]
  rw [← Equiv.sum_comp (finCongr e.symm) f, Fin.sum_univ_add]
  refine congrArg₂ (· + ·) ?_ ?_
  · refine Finset.sum_congr rfl fun i _ => congrArg f (Fin.ext ?_); simp
  · refine Finset.sum_congr rfl fun i _ => congrArg f (Fin.ext ?_); simp [Nat.add_comm]

/-- The infimum over `Fin (2 * h)` is the infimum over `Fin h` of the minimum of lower-half and
    upper-half entries. -/
theorem inf_halve {L : Type*} [SemilatticeInf L] [OrderTop L] (h : ℕ) (f : Fin (2 * h) → L) :
    Finset.univ.inf f = Finset.univ.inf fun i : Fin h => f ⟨i.val, by omega⟩ ⊓ f ⟨i.val + h, by omega⟩ := by
  apply le_antisymm
  · refine Finset.le_inf fun i _ => le_inf (Finset.inf_le (Finset.mem_univ _)) (Finset.inf_le (Finset.mem_univ _))
  · refine Finset.le_inf fun j _ => ?_
    by_cases hj : j.val < h
    · exact (Finset.inf_le (Finset.mem_univ (⟨j.val, hj⟩ : Fin h))).trans inf_le_left
    · have hj' : j.val - h < h := by omega
      refine (Finset.inf_le (Finset.mem_univ (⟨j.val - h, hj'⟩ : Fin h))).trans (inf_le_right.trans (le_of_eq ?_))
      exact congrArg f (Fin.ext (by simp; omega))

/-- The sum over `Fin (k * h)` regrouped by residue: position `i + h * j` for `i < h`, `j < k`. -/
theorem sum_strided {M : Type*} [AddCommMonoid M] (k h : ℕ) (f : Fin (k * h) → M) :
    ∑ i, f i = ∑ i : Fin h, ∑ j : Fin k, f ⟨i.val + h * j.val, by
      have h1 := i.isLt; have h2 : h * (j.val + 1) ≤ h * k := Nat.mul_le_mul_left h j.isLt
      rw [Nat.mul_succ] at h2; rw [Nat.mul_comm k h]; omega⟩ := by
  rw [Finset.sum_comm]
  rw [← Equiv.sum_comp finProdFinEquiv f, Fintype.sum_prod_type]
  refine Finset.sum_congr rfl fun j _ => Finset.sum_congr rfl fun i _ => congrArg f (Fin.ext ?_)
  simp [finProdFinEquiv, Nat.add_comm]

/-- The infimum over `Fin (k * h)` regrouped by residue. -/
theorem inf_strided {L : Type*} [SemilatticeInf L] [OrderTop L] (k h : ℕ) (f : Fin (k * h) → L) :
    Finset.univ.inf f = Finset.univ.inf fun i : Fin h => Finset.univ.inf fun j : Fin k => f ⟨i.val + h * j.val, by
      have h1 := i.isLt; have h2 : h * (j.val + 1) ≤ h * k := Nat.mul_le_mul_left h j.isLt
      rw [Nat.mul_succ] at h2; rw [Nat.mul_comm k h]; omega⟩ := by
  apply le_antisymm
  · exact Finset.le_inf fun i _ => Finset.le_inf fun j _ => Finset.inf_le (Finset.mem_univ _)
  · refine Finset.le_inf fun t _ => ?_
    have hh : 0 < h := by
      rcases Nat.eq_zero_or_pos h with h0 | h0
      · exact absurd t.isLt (by simp [h0])
      · exact h0
    have h1 : t.val % h < h := Nat.mod_lt _ hh
    have h2 : t.val / h < k := by
      exact Nat.div_lt_of_lt_mul (lt_of_lt_of_eq t.isLt (Nat.mul_comm k h))
    refine ((Finset.inf_le (Finset.mem_univ (⟨t.val % h, h1⟩ : Fin h))).trans
      (Finset.inf_le (Finset.mem_univ (⟨t.val / h, h2⟩ : Fin k)))).trans (le_of_eq ?_)
    exact congrArg f (Fin.ext (by simp [Nat.mod_add_div]))

end Cert.Halving
-- ==== Proof.KIAcc.lean ====
/-
  The kernel's squared-distance matrix of one half of the first cloud's block against the whole second
  cloud, read entry by entry: the row's squared norm, plus the column's quarter squared norm, plus the
  inner product of the row with the (scaled) column.
-/
import proofs.«145196_g5248450036648_cont_9to1_m_1041_38_alg».proof.Proof.Gen.KernelIdeal.Skeleton
import proofs.«145196_g5248450036648_cont_9to1_m_1041_38_alg».proof.Proof.Spec
import proofs.«145196_g5248450036648_cont_9to1_m_1041_38_alg».proof.Proof.LibHalving
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayValue

open Idealize.ShloMosaic Idealize.ShloMosaic.ValueIdx Cert.KernelIdeal Cert.KernelIdeal.Gen Cert.Chamfer

/-! ### Indices: a reduced index with its coordinate put back, and the two operand indices of the product -/

/-- Over axis 0 of a [3, 4096] block: the column index m with the row k put back is (k, m). -/
private theorem lift_S3x4096 (h : S3x4096.Reduces [0] S4096) (m : Fin 4096) (k : Fin 3) :
    h.lift (ix1 m) k = ix2 k m := by
  funext a
  refine Fin.ext ?_
  match a with
  | ⟨0, _⟩ => rfl
  | ⟨1, _⟩ => rfl

/-- Over axis 1 of a [2048, 3] block: the row index r with the column k put back is (r, k). -/
private theorem lift_S2048x3 (h : S2048x3.Reduces [1] S2048) (r : Fin 2048) (k : Fin 3) :
    h.lift (ix1 r) k = ix2 r k := by
  funext a
  refine Fin.ext ?_
  match a with
  | ⟨0, _⟩ => rfl
  | ⟨1, _⟩ => rfl

/-- The left operand's row is the result's row. -/
private theorem lhs_dot_0 (i : S2048x4096.Idx) (q : dot_S2048x3_S3x4096_S2048x4096_1_0_0_1_n_n.contr.Idx) :
    (dot_S2048x3_S3x4096_S2048x4096_1_0_0_1_n_n.lhsIdx i q 0).val = (i 0).val := by
  unfold DotDims.lhsIdx
  rw [dif_neg (show ¬(0 : Fin S2048x3.rank) ∈ dot_S2048x3_S3x4096_S2048x4096_1_0_0_1_n_n.lhsBatch by decide),
    dif_pos (show (0 : Fin S2048x3.rank) ∈ dot_S2048x3_S3x4096_S2048x4096_1_0_0_1_n_n.lhsNonContracting by decide)]
  rfl

/-- The left operand's column is the contraction's coordinate. -/
private theorem lhs_dot_1 (i : S2048x4096.Idx) (q : dot_S2048x3_S3x4096_S2048x4096_1_0_0_1_n_n.contr.Idx) :
    (dot_S2048x3_S3x4096_S2048x4096_1_0_0_1_n_n.lhsIdx i q 1).val = (q ⟨0, by decide⟩).val :=
  dot_S2048x3_S3x4096_S2048x4096_1_0_0_1_n_n.lhsIdx_val_of_single rfl i q

/-- The right operand's row is the contraction's coordinate. -/
private theorem rhs_dot_0 (i : S2048x4096.Idx) (q : dot_S2048x3_S3x4096_S2048x4096_1_0_0_1_n_n.contr.Idx) :
    (dot_S2048x3_S3x4096_S2048x4096_1_0_0_1_n_n.rhsIdx i q 0).val = (q ⟨0, by decide⟩).val :=
  dot_S2048x3_S3x4096_S2048x4096_1_0_0_1_n_n.rhsIdx_val_of_single rfl i q

/-- The right operand's column is the result's column. -/
private theorem rhs_dot_1 (i : S2048x4096.Idx) (q : dot_S2048x3_S3x4096_S2048x4096_1_0_0_1_n_n.contr.Idx) :
    (dot_S2048x3_S3x4096_S2048x4096_1_0_0_1_n_n.rhsIdx i q 1).val = (i 1).val := by
  unfold DotDims.rhsIdx
  rw [dif_neg (show ¬(1 : Fin S3x4096.rank) ∈ dot_S2048x3_S3x4096_S2048x4096_1_0_0_1_n_n.rhsBatch by decide),
    dif_pos (show (1 : Fin S3x4096.rank) ∈ dot_S2048x3_S3x4096_S2048x4096_1_0_0_1_n_n.rhsNonContracting by decide)]
  rfl

/-! ### Two keepdims forms read at an index -/

/-- An [a] array cast to the column [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The second cloud's block with its unit leading axis dropped. -/
theorem pay4_apply (v0 : Vec Ideal S1x3x4096 .f32) (d : Fin 3) (m : Fin 4096) :
    k0_pay4 (F := Ideal) v0 (ix2 d m) = v0 (ix3 0 d m) := by
  unfold k0_pay4
  exact shapeCast_1ab_ab_apply v0 _ d m

/-- A quarter of each column's squared norm. -/
theorem pay5_apply (v0 : Vec Ideal S1x3x4096 .f32) (m : Fin 4096) :
    k0_pay5 (F := Ideal) v0 (ix2 0 m) = qtr * ∑ d : Fin 3, v0 (ix3 0 d m) * v0 (ix3 0 d m) := by
  unfold k0_pay5
  -- the broadcast literal times the column sum, the sum read through the cast that adds the unit axis
  refine congrArg (qtr * ·) ?_
  refine (shapeCast_a_1a_apply _ _ 0 m).trans ?_
  refine (Ideal.multiReduction_add_single _ _ _ _ _ _).trans ?_
  refine Finset.sum_congr rfl fun (d : Fin 3) _ => ?_
  have e : reduces_S3x4096_S4096.lift (ix1 m) d = ix2 d m := lift_S3x4096 _ m d
  rw [e]
  show k0_pay4 v0 (ix2 d m) * k0_pay4 v0 (ix2 d m) = _
  rw [pay4_apply]

/-- The distance matrix of 2048 rows against all columns. -/
theorem pay11_apply (v1 : FVec Ideal S3x4096 .f32) (v6 : FVec Ideal S1x4096 .f32) (blk : Vec Ideal S1x2048x3 .f32)
    (r : Fin 2048) (m : Fin 4096) :
    k0_pay11 (F := Ideal) v1 v6 blk (ix2 r m)
      = ((∑ d : Fin 3, blk (ix3 0 r d) * blk (ix3 0 r d)) + v6 (ix2 0 m)) + ∑ d : Fin 3, blk (ix3 0 r d) * v1 (ix2 d m) := by
  unfold k0_pay11
  refine congrArg₂ (· + ·) (congrArg₂ (· + ·) ?_ ?_) ?_
  · -- the row's squared norm: the column of row sums, broadcast along the row
    refine (broadcastTo_a1_ab_apply _ _ r m).trans ?_
    refine (shapeCast_a_a1_apply _ _ r 0).trans ?_
    refine (Ideal.multiReduction_add_single _ _ _ _ _ _).trans ?_
    refine Finset.sum_congr rfl fun (d : Fin 3) _ => ?_
    have e : reduces_S2048x3_S2048.lift (ix1 r) d = ix2 r d := lift_S2048x3 _ r d
    rw [e]
    show shapeCast S2048x3 blk shapeCasts_S1x2048x3_S2048x3 (ix2 r d) * shapeCast S2048x3 blk shapeCasts_S1x2048x3_S2048x3 (ix2 r d) = _
    rw [shapeCast_1ab_ab_apply]
  · -- the one row of column terms, broadcast down the rows
    exact broadcastTo_1b_ab_apply v6 _ r m
  · -- the product into the zero accumulator: the sum over the contraction's one axis
    refine (Ideal.matmul_constant_zero_apply _ _ _ _ _).trans ?_
    rw [← Equiv.sum_comp (contrEquiv1 dot_S2048x3_S3x4096_S2048x4096_1_0_0_1_n_n 3 rfl rfl).symm]
    refine Finset.sum_congr rfl fun k _ => ?_
    have hk := contrEquiv1_symm_val dot_S2048x3_S3x4096_S2048x4096_1_0_0_1_n_n 3 rfl rfl k
    have el : dot_S2048x3_S3x4096_S2048x4096_1_0_0_1_n_n.lhsIdx (ix2 r m)
        ((contrEquiv1 dot_S2048x3_S3x4096_S2048x4096_1_0_0_1_n_n 3 rfl rfl).symm k) = ix2 r k :=
      funext fun a => Fin.ext (by
        match a with
        | ⟨0, _⟩ => exact lhs_dot_0 _ _
        | ⟨1, _⟩ => exact (lhs_dot_1 _ _).trans hk)
    have er : dot_S2048x3_S3x4096_S2048x4096_1_0_0_1_n_n.rhsIdx (ix2 r m)
        ((contrEquiv1 dot_S2048x3_S3x4096_S2048x4096_1_0_0_1_n_n 3 rfl rfl).symm k) = ix2 k m :=
      funext fun a => Fin.ext (by
        match a with
        | ⟨0, _⟩ => exact (rhs_dot_0 _ _).trans hk
        | ⟨1, _⟩ => exact rhs_dot_1 _ _)
    rw [el, er, shapeCast_1ab_ab_apply]

/-- The first half's matrix is the same function of its operands as the second half's. -/
theorem pay6_eq (v0 : Vec Ideal S1x3x4096 .f32) (v7 : Vec Ideal S1x2048x3 .f32) :
    k0_pay6 (F := Ideal) v0 v7 = k0_pay11 (k0_pay4 v0) (k0_pay5 v0) v7 := rfl

end Cert.KernelIdeal.PayValue

end
-- ==== Proof.KIRows.lean ====
/-
  The reductions of the kernel body that run down the rows of a distance matrix and along a row of
  partial results: the column minima of a 2048-row matrix (by repeatedly taking the minimum of the
  upper and lower halves of the rows, then over the last eight), the clamped sum over all columns, the
  lane sum of the first cloud's partial sums, and the point's two scaled sums added.
-/
import proofs.«145196_g5248450036648_cont_9to1_m_1041_38_alg».proof.Proof.Gen.KernelIdeal.Skeleton
import proofs.«145196_g5248450036648_cont_9to1_m_1041_38_alg».proof.Proof.Spec
import proofs.«145196_g5248450036648_cont_9to1_m_1041_38_alg».proof.Proof.LibHalving
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayValue

open Idealize.ShloMosaic Idealize.ShloMosaic.ValueIdx Cert.KernelIdeal Cert.KernelIdeal.Gen Cert.Chamfer

/-- Over a column index, the matrix index with a row inserted. -/
private theorem lift_rows {n c : Nat} (h : (⟨2, ![n, c]⟩ : Shape).Reduces [0] ⟨1, ![c]⟩) (m : Fin c) (k : Fin n) :
    h.lift (ix1 m) k = ix2 k m := by
  funext a
  match a with
  | ⟨0, _⟩ => rfl
  | ⟨1, _⟩ => rfl

/-- Over the one index of a one-row matrix's row reduction, the matrix index with a column inserted. -/
private theorem lift_cols {n : Nat} (h : (⟨2, ![1, n]⟩ : Shape).Reduces [1] ⟨1, ![1]⟩) (u : Fin 1) (k : Fin n) :
    h.lift (ix1 u) k = ix2 u k := by
  funext a
  match a with
  | ⟨0, _⟩ => rfl
  | ⟨1, _⟩ => rfl

/-- A minimum reduction down the rows from `+∞` is, at each column, the infimum of the column. -/
private theorem minRows_apply {n c : Nat} (src : FVec Ideal ⟨2, ![n, c]⟩ .f32)
    (h : (⟨2, ![n, c]⟩ : Shape).Reduces [0] ⟨1, ![c]⟩) (hφ : FKind.Formats .f32)
    (hacc : (0x7F800000#32 : BitVec 32) = FKind.minimumf.neutral .f32 hφ) (m : Fin c) :
    multiReduction .minimumf [0] ⟨1, ![c]⟩ src 0x7F800000#32 h hφ hacc (ix1 m)
      = Finset.univ.inf fun k : Fin n => src (ix2 k m) := by
  rw [multiReduction_minimumf_eq_fold]
  refine (h.fold_filter_drop_single _ _ src (ix1 m)).trans ?_
  show (Finset.univ : Finset (Fin n)).fold min (Ideal.ofBits .f32 0x7F800000#32) (fun k => src (h.lift (ix1 m) k)) = _
  rw [inf_eq_top]
  refine (congrArg (fun f : Fin n → EReal => Finset.univ.fold min ⊤ f)
    (funext fun k => congrArg src (lift_rows h m k))).trans ?_
  rfl

/-- An addition reduction along the one row is the sum of the row. -/
private theorem sumCols_apply {n : Nat} (src : FVec Ideal ⟨2, ![1, n]⟩ .f32)
    (h : (⟨2, ![1, n]⟩ : Shape).Reduces [1] ⟨1, ![1]⟩) (hφ : FKind.Formats .f32)
    (hacc : (0x00000000#32 : BitVec 32) = FKind.add.neutral .f32 hφ) (u : Fin 1) :
    multiReduction .add [1] ⟨1, ![1]⟩ src 0x00000000#32 h hφ hacc (ix1 u)
      = ∑ k : Fin n, src (ix2 u k) := by
  refine (Ideal.multiReduction_add_single src _ h hφ hacc (ix1 u)).trans ?_
  exact Finset.sum_congr rfl fun k _ => congrArg src (lift_cols h u k)

/-- The pointwise minimum of the upper and lower halves of a matrix's rows. -/
private def halveRows {n c : Nat} (h : Nat) (X : FVec Ideal ⟨2, ![n, c]⟩ .f32)
    (s0 : (⟨2, ![n, c]⟩ : Shape).Slices ![0, 0] ⟨2, ![h, c]⟩)
    (s1 : (⟨2, ![n, c]⟩ : Shape).Slices ![h, 0] ⟨2, ![h, c]⟩) : FVec Ideal ⟨2, ![h, c]⟩ .f32 :=
  minimumf (extractStridedSlice ⟨2, ![h, c]⟩ ![0, 0] X s0) (extractStridedSlice ⟨2, ![h, c]⟩ ![h, 0] X s1)

/-- The infimum of a column. -/
private def colInf {n c : Nat} (X : FVec Ideal ⟨2, ![n, c]⟩ .f32) (m : Fin c) : EReal :=
  Finset.univ.inf fun r : Fin n => X (ix2 r m)

/-- Taking the minimum of the two halves of the rows keeps every column's infimum. -/
private theorem colInf_halveRows {n c : Nat} (h : Nat) (hn : n = 2 * h) (X : FVec Ideal ⟨2, ![n, c]⟩ .f32)
    (s0 : (⟨2, ![n, c]⟩ : Shape).Slices ![0, 0] ⟨2, ![h, c]⟩)
    (s1 : (⟨2, ![n, c]⟩ : Shape).Slices ![h, 0] ⟨2, ![h, c]⟩) (m : Fin c) :
    colInf (halveRows h X s0 s1) m = colInf X m := by
  subst hn
  unfold colInf
  rw [Cert.Halving.inf_halve h (fun r => X (ix2 r m))]
  refine congrArg (Finset.univ.inf) (funext fun r => ?_)
  show min (extractStridedSlice _ _ X s0 (ix2 r m)) (extractStridedSlice _ _ X s1 (ix2 r m)) = _
  rw [slice2_axis0_apply 0 X s0 r m ⟨r.val, by omega⟩ (by simp),
    slice2_axis0_apply h X s1 r m ⟨r.val + h, by omega⟩ (by simp; omega)]

/-- The column minima as computed: eight halvings of the rows, then the minimum over the last eight. -/
private theorem pay10_eq (A : FVec Ideal S2048x4096 .f32) :
    k0_pay10 (F := Ideal) A = shapeCast S1x4096 (multiReduction .minimumf [0] S4096
      (halveRows 8 (halveRows 16 (halveRows 32 (halveRows 64 (halveRows 128 (halveRows 256 (halveRows 512 (halveRows 1024 A
        slices_S2048x4096_o0_0_S1024x4096 slices_S2048x4096_o1024_0_S1024x4096)
        slices_S1024x4096_o0_0_S512x4096 slices_S1024x4096_o512_0_S512x4096)
        slices_S512x4096_o0_0_S256x4096 slices_S512x4096_o256_0_S256x4096)
        slices_S256x4096_o0_0_S128x4096 slices_S256x4096_o128_0_S128x4096)
        slices_S128x4096_o0_0_S64x4096 slices_S128x4096_o64_0_S64x4096)
        slices_S64x4096_o0_0_S32x4096 slices_S64x4096_o32_0_S32x4096)
        slices_S32x4096_o0_0_S16x4096 slices_S32x4096_o16_0_S16x4096)
        slices_S16x4096_o0_0_S8x4096 slices_S16x4096_o8_0_S8x4096)
      0x7F800000#32 reduces_S8x4096_S4096 (.inl rfl) rfl) shapeCasts_S4096_S1x4096 := rfl

/-- The second cloud's sum as computed: the column minima, then the minimum with the first half's, the clamp at
    zero and the sum along the row. -/
private theorem pay14_eq (v74 : FVec Ideal S1x4096 .f32) (A : FVec Ideal S2048x4096 .f32) :
    k0_pay14 (F := Ideal) v74 A = shapeCast S1x1 (multiReduction .add [1] S1
      (maximumf (minimumf v74 (k0_pay10 (F := Ideal) A)) (broadcast S1x4096 (Scalar.ofBits (F := Ideal) .f32 0x00000000#32)))
      0x00000000#32 reduces_S1x4096_S1 (.inl rfl) rfl) shapeCasts_S1_S1x1 := rfl

/-- The pointwise sum of the upper and lower halves of a one-row matrix's columns. -/
private def halveCols {n : Nat} (h : Nat) (X : FVec Ideal ⟨2, ![1, n]⟩ .f32)
    (s0 : (⟨2, ![1, n]⟩ : Shape).Slices ![0, 0] ⟨2, ![1, h]⟩)
    (s1 : (⟨2, ![1, n]⟩ : Shape).Slices ![0, h] ⟨2, ![1, h]⟩) : FVec Ideal ⟨2, ![1, h]⟩ .f32 :=
  addf (extractStridedSlice ⟨2, ![1, h]⟩ ![0, 0] X s0) (extractStridedSlice ⟨2, ![1, h]⟩ ![0, h] X s1)

/-- The sum of a one-row matrix's entries. -/
private def rowSum {n : Nat} (X : FVec Ideal ⟨2, ![1, n]⟩ .f32) : EReal := ∑ l : Fin n, X (ix2 0 l)

/-- Adding the two halves of the columns keeps the row's sum. -/
private theorem rowSum_halveCols {n : Nat} (h : Nat) (hn : n = 2 * h) (X : FVec Ideal ⟨2, ![1, n]⟩ .f32)
    (s0 : (⟨2, ![1, n]⟩ : Shape).Slices ![0, 0] ⟨2, ![1, h]⟩)
    (s1 : (⟨2, ![1, n]⟩ : Shape).Slices ![0, h] ⟨2, ![1, h]⟩) :
    rowSum (halveCols h X s0 s1) = rowSum X := by
  subst hn
  unfold rowSum
  rw [Cert.Halving.sum_halve h (fun l => X (ix2 0 l))]
  refine Finset.sum_congr rfl fun l _ => ?_
  show extractStridedSlice _ _ X s0 (ix2 0 l) + extractStridedSlice _ _ X s1 (ix2 0 l) = _
  rw [slice2_axis1_apply 0 X s0 0 l ⟨l.val, by omega⟩ (Nat.zero_add _).symm,
    slice2_axis1_apply h X s1 0 l ⟨l.val + h, by omega⟩ (Nat.add_comm _ _)]

/-- The first cloud's scaled sum as computed: the minimum down the lanes, the clamp at zero, four halvings of the
    columns by addition, the first half's partial sums added, the sum over the lanes, the scaling. -/
private theorem pay13_eq (v48 : FVec Ideal S1x128 .f32) (T : FVec Ideal S128x2048 .f32) :
    k0_pay13 (F := Ideal) v48 T = mulf (shapeCast S1x1 (multiReduction .add [1] S1 (addf v48
      (halveCols 128 (halveCols 256 (halveCols 512 (halveCols 1024
        (maximumf (shapeCast S1x2048
            (multiReduction .minimumf [0] S2048 T 0x7F800000#32 reduces_S128x2048_S2048 (.inl rfl) rfl)
            shapeCasts_S2048_S1x2048)
          (broadcast S1x2048 (Scalar.ofBits (F := Ideal) .f32 0x00000000#32)))
        slices_S1x2048_o0_0_S1x1024 slices_S1x2048_o0_1024_S1x1024)
        slices_S1x1024_o0_0_S1x512 slices_S1x1024_o0_512_S1x512)
        slices_S1x512_o0_0_S1x256 slices_S1x512_o0_256_S1x256)
        slices_S1x256_o0_0_S1x128 slices_S1x256_o0_128_S1x128))
      0x00000000#32 reduces_S1x128_S1 (.inl rfl) rfl) shapeCasts_S1_S1x1)
      (broadcast S1x1 (Scalar.ofBits (F := Ideal) .f32 0x38800000#32)) := rfl

/-- Column minima of a 2048-row matrix. -/
theorem pay10_apply (A : FVec Ideal S2048x4096 .f32) (m : Fin 4096) :
    k0_pay10 (F := Ideal) A (ix2 0 m) = Finset.univ.inf fun r : Fin 2048 => A (ix2 r m) := by
  rw [pay10_eq]
  refine (shapeCast_a_1a_apply _ _ 0 m).trans ?_
  refine (minRows_apply _ _ _ _ m).trans ?_
  show colInf (halveRows 8 _ _ _) m = colInf A m
  rw [colInf_halveRows 8 (n := 16) rfl, colInf_halveRows 16 (n := 32) rfl, colInf_halveRows 32 (n := 64) rfl,
    colInf_halveRows 64 (n := 128) rfl, colInf_halveRows 128 (n := 256) rfl, colInf_halveRows 256 (n := 512) rfl,
    colInf_halveRows 512 (n := 1024) rfl, colInf_halveRows 1024 (n := 2048) rfl]

/-- The second cloud's sum: over every column, the least of the two halves' column minima, clamped at zero. -/
theorem pay14_apply (v74 : FVec Ideal S1x4096 .f32) (A : FVec Ideal S2048x4096 .f32) :
    k0_pay14 (F := Ideal) v74 A (ix2 0 0)
      = ∑ m : Fin 4096, max (min (v74 (ix2 0 m)) (Finset.univ.inf fun r : Fin 2048 => A (ix2 r m))) 0 := by
  rw [pay14_eq]
  refine (shapeCast_a_1a_apply _ _ 0 0).trans ?_
  refine (sumCols_apply _ _ _ _ 0).trans ?_
  refine Finset.sum_congr rfl fun m _ => ?_
  show max (min (v74 (ix2 0 m)) (k0_pay10 (F := Ideal) A (ix2 0 m))) (Ideal.ofBits .f32 0x00000000#32) = _
  rw [pay10_apply, Ideal.ofBits_zero_f32]

/-- The low 128 lanes of a 256-lane row. -/
theorem pay8_apply (v0 : Vec Ideal S1x3x4096 .f32) (v7 : Vec Ideal S1x2048x3 .f32) (l : Fin 128) :
    k0_pay8 (F := Ideal) v0 v7 (ix2 0 l) = k0_pay7 (F := Ideal) v0 v7 (ix2 0 (⟨l.val, by omega⟩ : Fin 256)) := by
  show extractStridedSlice S1x128 ![0, 0] (k0_pay7 (F := Ideal) v0 v7) slices_S1x256_o0_0_S1x128 (ix2 0 l) = _
  exact slice2_axis1_apply 0 _ _ 0 l ⟨l.val, by omega⟩ (Nat.zero_add _).symm

/-- The last halving of the first half's partial sums. -/
theorem pay9_apply (v45 : FVec Ideal S1x256 .f32) (v46 : FVec Ideal S1x128 .f32) (l : Fin 128) :
    k0_pay9 (F := Ideal) v45 v46 (ix2 0 l) = v46 (ix2 0 l) + v45 (ix2 0 (⟨l.val + 128, by omega⟩ : Fin 256)) := by
  show v46 (ix2 0 l) + extractStridedSlice S1x128 ![0, 128] v45 slices_S1x256_o0_128_S1x128 (ix2 0 l) = _
  rw [slice2_axis1_apply 128 v45 _ 0 l ⟨l.val + 128, by omega⟩ (Nat.add_comm _ _)]

/-- The first cloud's scaled sum: the first half's 128 partial sums plus, from the transposed lane minima `T`
    of the second half, every row's minimum clamped at zero; all added and scaled. -/
theorem pay13_apply (v48 : FVec Ideal S1x128 .f32) (T : FVec Ideal S128x2048 .f32) :
    k0_pay13 (F := Ideal) v48 T (ix2 0 0)
      = ((∑ l : Fin 128, v48 (ix2 0 l)) + ∑ r : Fin 2048, max (Finset.univ.inf fun j : Fin 128 => T (ix2 j r)) 0) * invN := by
  rw [pay13_eq]
  show (shapeCast S1x1 _ shapeCasts_S1_S1x1 (ix2 0 0)) * invN = _
  refine congrArg (· * invN) ?_
  refine (shapeCast_a_1a_apply _ _ 0 0).trans ?_
  refine (sumCols_apply _ _ _ _ 0).trans ?_
  show ∑ k : Fin 128, (v48 (ix2 0 k) + halveCols 128 _ _ _ (ix2 0 k)) = _
  rw [Finset.sum_add_distrib]
  refine congrArg (_ + ·) ?_
  show rowSum (halveCols 128 _ _ _) = _
  rw [rowSum_halveCols 128 (n := 256) rfl, rowSum_halveCols 256 (n := 512) rfl, rowSum_halveCols 512 (n := 1024) rfl,
    rowSum_halveCols 1024 (n := 2048) rfl]
  unfold rowSum
  refine Finset.sum_congr rfl fun r _ => ?_
  show max (shapeCast S1x2048 _ shapeCasts_S2048_S1x2048 (ix2 0 r)) (Ideal.ofBits .f32 0x00000000#32) = _
  rw [Ideal.ofBits_zero_f32]
  refine congrArg (fun x => max x 0) ?_
  refine (shapeCast_a_1a_apply _ _ 0 r).trans ?_
  exact minRows_apply T _ _ _ r

/-- The point's contribution from its two sums. -/
theorem pay1_apply (v148 v152 : FVec Ideal S1x1 .f32) (c : Ideal .f32) :
    k0_pay1 (F := Ideal) v148 v152 c (ix2 0 0) = v148 (ix2 0 0) + v152 (ix2 0 0) * c := by
  rfl

end Cert.KernelIdeal.PayValue

end
-- ==== Proof.KILanes.lean ====
/-
  The reductions of the kernel body that run along the rows of a distance matrix: each row's minimum
  over 4096 columns is taken by halving the columns down to 128 lanes, transposing, and reducing the
  128 lanes; the clamped minima of 2048 rows are then added pairwise down to 256 partial sums.
-/
import proofs.«145196_g5248450036648_cont_9to1_m_1041_38_alg».proof.Proof.Gen.KernelIdeal.Skeleton
import proofs.«145196_g5248450036648_cont_9to1_m_1041_38_alg».proof.Proof.Spec
import proofs.«145196_g5248450036648_cont_9to1_m_1041_38_alg».proof.Proof.LibHalving
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayValue

open Idealize.ShloMosaic Idealize.ShloMosaic.ValueIdx Cert.KernelIdeal Cert.KernelIdeal.Gen Cert.Chamfer

/-! ## One halving of the columns -/

/-- The minimum of a matrix's left and right column halves, read at `(a, j)`: the smaller of the entries at columns
    `j` and `j + m`. -/
private theorem minHalf_apply {n0 n1 m : ℕ} (hn : n1 = 2 * m) (X : FVec Ideal ⟨2, ![n0, n1]⟩ .f32)
    (h0 : (⟨2, ![n0, n1]⟩ : Shape).Slices ![0, 0] ⟨2, ![n0, m]⟩)
    (h1 : (⟨2, ![n0, n1]⟩ : Shape).Slices ![0, m] ⟨2, ![n0, m]⟩) (a : Fin n0) (j : Fin m) :
    minimumf (extractStridedSlice ⟨2, ![n0, m]⟩ ![0, 0] X h0) (extractStridedSlice ⟨2, ![n0, m]⟩ ![0, m] X h1) (ix2 a j)
      = min (X (ix2 a ⟨j.val, by omega⟩)) (X (ix2 a ⟨j.val + m, by omega⟩)) := by
  rw [minimumf_apply]
  rw [slice2_axis1_apply 0 X h0 a j ⟨j.val, by omega⟩ (Nat.zero_add _).symm]
  rw [slice2_axis1_apply m X h1 a j ⟨j.val + m, by omega⟩ (Nat.add_comm _ _)]

/-- Halving the columns by the minimum keeps each row's infimum. -/
private theorem inf_minHalf {n0 n1 m : ℕ} (hn : n1 = 2 * m) (X : FVec Ideal ⟨2, ![n0, n1]⟩ .f32)
    (h0 : (⟨2, ![n0, n1]⟩ : Shape).Slices ![0, 0] ⟨2, ![n0, m]⟩)
    (h1 : (⟨2, ![n0, n1]⟩ : Shape).Slices ![0, m] ⟨2, ![n0, m]⟩) (a : Fin n0) :
    (Finset.univ.inf fun j : Fin m =>
        minimumf (extractStridedSlice ⟨2, ![n0, m]⟩ ![0, 0] X h0) (extractStridedSlice ⟨2, ![n0, m]⟩ ![0, m] X h1) (ix2 a j))
      = Finset.univ.inf fun c : Fin n1 => X (ix2 a c) := by
  subst hn
  rw [Cert.Halving.inf_halve m fun c : Fin (2 * m) => X (ix2 a c)]
  refine congrArg (Finset.univ.inf) (funext fun j => ?_)
  exact minHalf_apply rfl X h0 h1 a j

/-! ## The reduction of the 128 lanes -/

/-- A `<minimumf>` reduction over one axis, read at the ideal values: the fold of `min` from the initial value over
    that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the rows of a `128 × 2048` matrix by the minimum from `+∞` gives, at column `r`, the infimum of that
    column. -/
private theorem minReduce_lanes (X : FVec Ideal S128x2048 .f32) (hφ : FKind.Formats .f32)
    (hacc : (0x7F800000#32 : BitVec 32) = FKind.minimumf.neutral .f32 hφ) (r : Fin 2048) :
    multiReduction .minimumf [0] S2048 X 0x7F800000#32 reduces_S128x2048_S2048 hφ hacc (ix1 r)
      = Finset.univ.inf fun k : Fin 128 => X (ix2 k r) := by
  rw [multiReduction_minimumf_single]
  have htop : FloatOps.ofBits (F := Ideal) .f32 0x7F800000#32 = (⊤ : EReal) := inf_eq_top
  rw [htop]
  have hlift : (X ∘ reduces_S128x2048_S2048.lift (ix1 r)) = fun k : Fin 128 => X (ix2 k r) := by
    funext k
    refine congrArg X (funext fun c => ?_)
    match c with
    | ⟨0, _⟩ => exact Fin.ext rfl
    | ⟨1, _⟩ => exact Fin.ext rfl
  rw [hlift]
  rfl

/-- The lanes transposed: the infimum over the rows of the transposed matrix at column `r` is the infimum of row `r`. -/
private theorem inf_transpose_lanes (Y : FVec Ideal S2048x128 .f32) (r : Fin 2048) :
    (Finset.univ.inf fun j : Fin 128 => transpose S128x2048 [1, 0] Y transposes_S2048x128_p1_0_S128x2048 (ix2 j r))
      = Finset.univ.inf fun j : Fin 128 => Y (ix2 r j) :=
  congrArg (Finset.univ.inf) (funext fun j => transpose_ix2_apply Y _ j r)

/-! ## The clamped row minima -/

/-- After the transpose, the reduction of the 128 lanes, the cast to a row and the clamp at zero, lane `r` of the row
    holds the infimum of row `r` of the halved matrix, clamped below at `0`. -/
private theorem clampRow_apply (Y : FVec Ideal S2048x128 .f32) (hφ : FKind.Formats .f32)
    (hacc : (0x7F800000#32 : BitVec 32) = FKind.minimumf.neutral .f32 hφ) (u : Fin 1) (r : Fin 2048) :
    maximumf
        (shapeCast S1x2048
          (multiReduction .minimumf [0] S2048 (transpose S128x2048 [1, 0] Y transposes_S2048x128_p1_0_S128x2048)
            0x7F800000#32 reduces_S128x2048_S2048 hφ hacc) shapeCasts_S2048_S1x2048)
        (broadcast S1x2048 (Scalar.ofBits .f32 0x00000000#32)) (ix2 u r)
      = max (Finset.univ.inf fun j : Fin 128 => Y (ix2 r j)) 0 := by
  rw [maximumf_apply, broadcast_apply, shapeCast_a_1a_apply, minReduce_lanes, inf_transpose_lanes]
  show max _ (Ideal.ofBits .f32 0x00000000#32) = _
  rw [Ideal.ofBits_zero_f32]

/-! ## One halving of the lanes by addition -/

/-- The sum of a row's left and right halves, read at lane `j`: the entries at lanes `j` and `j + m` added. -/
private theorem addHalf_apply {n m : ℕ} (hn : n = 2 * m) (X : FVec Ideal ⟨2, ![1, n]⟩ .f32)
    (h0 : (⟨2, ![1, n]⟩ : Shape).Slices ![0, 0] ⟨2, ![1, m]⟩)
    (h1 : (⟨2, ![1, n]⟩ : Shape).Slices ![0, m] ⟨2, ![1, m]⟩) (a : Fin 1) (j : Fin m) :
    addf (extractStridedSlice ⟨2, ![1, m]⟩ ![0, 0] X h0) (extractStridedSlice ⟨2, ![1, m]⟩ ![0, m] X h1) (ix2 a j)
      = X (ix2 a ⟨j.val, by omega⟩) + X (ix2 a ⟨j.val + m, by omega⟩) := by
  rw [addf_apply]
  rw [slice2_axis1_apply 0 X h0 a j ⟨j.val, by omega⟩ (Nat.zero_add _).symm]
  rw [slice2_axis1_apply m X h1 a j ⟨j.val + m, by omega⟩ (Nat.add_comm _ _)]

/-- Position `l + p k` of the `k`-th of `K` blocks of length `p` lies below `p K`. -/
private theorem stride_lt {p K l k : ℕ} (hl : l < p) (hk : k < K) : l + p * k < p * K := by
  have h2 : p * (k + 1) ≤ p * K := Nat.mul_le_mul_left p hk
  rw [Nat.mul_succ] at h2
  omega

/-- The same position lies below `n = 2 (p K)` when `k` ranges over `2 K` blocks. -/
private theorem stride_lt2 {n m p K K2 l k : ℕ} (hK : K2 = 2 * K) (hm : m = p * K) (hn : n = 2 * m) (hl : l < p)
    (hk : k < K2) : l + p * k < n := by
  subst hK hn hm
  have h := stride_lt (p := p) (K := 2 * K) hl hk
  rw [Nat.mul_left_comm] at h
  exact h

/-- If a row of `m = p K` lanes is the sum of the two halves of a row of `2 m` lanes, its `K` lanes at stride `p`
    from `l` add up to the longer row's `2 K` lanes at stride `p` from `l`. -/
private theorem addHalf_stride {n m : ℕ} (p K K2 : ℕ) (hK : K2 = 2 * K) (hm : m = p * K) (hn : n = 2 * m)
    (X : FVec Ideal ⟨2, ![1, n]⟩ .f32)
    (h0 : (⟨2, ![1, n]⟩ : Shape).Slices ![0, 0] ⟨2, ![1, m]⟩)
    (h1 : (⟨2, ![1, n]⟩ : Shape).Slices ![0, m] ⟨2, ![1, m]⟩) (a : Fin 1) (l : ℕ) (hl : l < p) :
    (∑ k : Fin K, addf (extractStridedSlice ⟨2, ![1, m]⟩ ![0, 0] X h0) (extractStridedSlice ⟨2, ![1, m]⟩ ![0, m] X h1)
        (ix2 a ⟨l + p * k.val, hm ▸ stride_lt hl k.isLt⟩))
      = ∑ k : Fin K2, X (ix2 a ⟨l + p * k.val, stride_lt2 hK hm hn hl k.isLt⟩) := by
  subst hK hn hm
  refine Eq.trans ?_ (Cert.Halving.sum_halve K fun k : Fin (2 * K) =>
    X (ix2 a ⟨l + p * k.val, stride_lt2 rfl rfl rfl hl k.isLt⟩)).symm
  refine Finset.sum_congr rfl fun k _ => ?_
  refine (addHalf_apply rfl X h0 h1 a _).trans ?_
  refine congrArg₂ (· + ·) rfl (congrArg X (congrArg (ix2 a) (Fin.ext ?_)))
  show l + p * k.val + p * K = l + p * (k.val + K)
  rw [Nat.mul_add, Nat.add_assoc]

/-- One lane is the one-term sum at any stride. -/
private theorem lane_eq_sum_one {n : ℕ} (p : ℕ) (Y : FVec Ideal ⟨2, ![1, n]⟩ .f32) (a : Fin 1) (l : Fin n)
    (h : ∀ k : Fin 1, l.val + p * k.val < n) :
    Y (ix2 a l) = ∑ k : Fin 1, Y (ix2 a ⟨l.val + p * k.val, h k⟩) := by
  rw [Fin.sum_univ_one]
  exact congrArg Y (congrArg (ix2 a) (Fin.ext (by simp)))

/-- Reducing the 128 lanes of the halved-and-transposed matrix gives each row's minimum over all 4096 columns. -/
theorem pay12_inf (v1 : FVec Ideal S3x4096 .f32) (v6 : FVec Ideal S1x4096 .f32) (blk : Vec Ideal S1x2048x3 .f32) (r : Fin 2048) :
    (Finset.univ.inf fun j : Fin 128 => k0_pay12 (F := Ideal) v1 v6 blk (ix2 j r))
      = Finset.univ.inf fun m : Fin 4096 => k0_pay11 (F := Ideal) v1 v6 blk (ix2 r m) := by
  unfold k0_pay12
  generalize k0_pay11 (F := Ideal) v1 v6 blk = A
  -- undo the transpose, then each of the five halvings keeps the row's infimum
  refine (inf_transpose_lanes _ r).trans ?_
  refine (inf_minHalf rfl _ _ _ r).trans ?_
  refine (inf_minHalf rfl _ _ _ r).trans ?_
  refine (inf_minHalf rfl _ _ _ r).trans ?_
  refine (inf_minHalf rfl _ _ _ r).trans ?_
  exact inf_minHalf rfl _ _ _ r

/-- The first half's 256 partial sums: lane `l` holds the clamped row minima of the eight rows `l + 256 k`. -/
theorem pay7_apply (v0 : Vec Ideal S1x3x4096 .f32) (v7 : Vec Ideal S1x2048x3 .f32) (l : Fin 256) :
    k0_pay7 (F := Ideal) v0 v7 (ix2 0 l)
      = ∑ k : Fin 8, max (Finset.univ.inf fun m : Fin 4096 =>
          k0_pay6 (F := Ideal) v0 v7 (ix2 (⟨l.val + 256 * k.val, by omega⟩ : Fin 2048) m)) 0 := by
  unfold k0_pay7
  generalize k0_pay6 (F := Ideal) v0 v7 = A
  -- lane `l` of the 256 is a one-term sum at stride 256; each halving by addition doubles the number of terms
  refine (lane_eq_sum_one 256 _ _ l (fun k => by have := k.isLt; omega)).trans ?_
  refine (addHalf_stride (n := 512) (m := 256) 256 1 2 rfl rfl rfl _ _ _ _ l.val l.isLt).trans ?_
  refine (addHalf_stride (n := 1024) (m := 512) 256 2 4 rfl rfl rfl _ _ _ _ l.val l.isLt).trans ?_
  refine (addHalf_stride (n := 2048) (m := 1024) 256 4 8 rfl rfl rfl _ _ _ _ l.val l.isLt).trans ?_
  -- each term is a clamped row minimum, and the five halvings by the minimum keep the row's infimum
  refine Finset.sum_congr rfl fun k _ => ?_
  refine (clampRow_apply _ _ _ _ _).trans ?_
  refine congrArg (fun x => max x 0) ?_
  refine (inf_minHalf rfl _ _ _ _).trans ?_
  refine (inf_minHalf rfl _ _ _ _).trans ?_
  refine (inf_minHalf rfl _ _ _ _).trans ?_
  refine (inf_minHalf rfl _ _ _ _).trans ?_
  exact inf_minHalf rfl _ _ _ _

end Cert.KernelIdeal.PayValue

end
-- ==== Proof.KIPoint.lean ====
/-
  One grid point's contribution, read at the ideal instance: it is the batch's two scaled sums of
  clamped nearest squared distances.

  The first cloud's 4096 rows are processed as two halves of 2048; each half's row minima are added
  pairwise down to 128 partial sums, the two halves' partial sums are added, and the 128 lanes are
  summed: every row is counted exactly once.  For the second cloud, each half yields the column minima
  over its rows, and the minimum of the two is the minimum over all rows.
-/
import proofs.«145196_g5248450036648_cont_9to1_m_1041_38_alg».proof.Proof.KIPieces
import proofs.«145196_g5248450036648_cont_9to1_m_1041_38_alg».proof.Proof.KIAcc
import proofs.«145196_g5248450036648_cont_9to1_m_1041_38_alg».proof.Proof.KIRows
import proofs.«145196_g5248450036648_cont_9to1_m_1041_38_alg».proof.Proof.KILanes

set_option maxRecDepth 16384

noncomputable section

open scoped BigOperators

namespace Cert.KernelIdeal.PayValue

open Idealize.ShloMosaic Idealize.ShloMosaic.ValueIdx Cert.KernelIdeal Cert.KernelIdeal.Gen Cert.Chamfer
open Cert.KernelIdeal.Body (pointPay loRows hiRows)

/-- The lower half's rows are the block's rows 0 to 2047. -/
theorem loRows_apply (x0 : Vec Ideal S1x4096x3 .f32) (r : Fin 2048) (d : Fin 3) :
    loRows x0 (ix3 0 r d) = x0 (ix3 0 (⟨r.val, by omega⟩ : Fin 4096) d) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * d.val = d.val; omega

/-- The upper half's rows are the block's rows 2048 to 4095. -/
theorem hiRows_apply (x0 : Vec Ideal S1x4096x3 .f32) (r : Fin 2048) (d : Fin 3) :
    hiRows x0 (ix3 0 r d) = x0 (ix3 0 (⟨r.val + 2048, by omega⟩ : Fin 4096) d) := by
  show x0 _ = x0 _
  refine congrArg x0 (funext fun a => Fin.ext ?_)
  match a with
  | ⟨0, _⟩ => rfl
  | ⟨1, _⟩ => show 2048 + 1 * r.val = r.val + 2048; omega
  | ⟨2, _⟩ => show 0 + 1 * d.val = d.val; omega

section
variable (x0 : Vec Ideal S1x4096x3 .f32) (x1 : Vec Ideal S1x3x4096 .f32)

/-- The first cloud's points of this batch. -/
abbrev ptsU : Fin 4096 → Fin 3 → EReal := fun n d => x0 (ix3 0 n d)
/-- The second cloud's points of this batch, transposed and scaled. -/
abbrev ptsW : Fin 3 → Fin 4096 → EReal := fun d m => x1 (ix3 0 d m)

/-- The lower half's distance matrix. -/
theorem lo_acc (r : Fin 2048) (m : Fin 4096) :
    k0_pay6 (F := Ideal) x1 (loRows x0) (ix2 r m) = accK (ptsU x0) (ptsW x1) (⟨r.val, by omega⟩ : Fin 4096) m := by
  rw [pay6_eq, pay11_apply, pay5_apply]
  unfold accK
  exact congrArg₂ (· + ·)
    (congrArg₂ (· + ·) (Finset.sum_congr rfl fun d _ => by rw [loRows_apply])
      rfl)
    (Finset.sum_congr rfl fun d _ => by rw [loRows_apply, pay4_apply])

/-- The upper half's distance matrix. -/
theorem hi_acc (r : Fin 2048) (m : Fin 4096) :
    k0_pay11 (F := Ideal) (k0_pay4 x1) (k0_pay5 x1) (hiRows x0) (ix2 r m)
      = accK (ptsU x0) (ptsW x1) (⟨r.val + 2048, by omega⟩ : Fin 4096) m := by
  rw [pay11_apply, pay5_apply]
  unfold accK
  exact congrArg₂ (· + ·)
    (congrArg₂ (· + ·) (Finset.sum_congr rfl fun d _ => by rw [hiRows_apply])
      rfl)
    (Finset.sum_congr rfl fun d _ => by rw [hiRows_apply, pay4_apply])

/-- A row's clamped nearest squared distance. -/
abbrev near1 (n : Fin 4096) : EReal := max (Finset.univ.inf fun m : Fin 4096 => accK (ptsU x0) (ptsW x1) n m) 0

/-- The lower half's 128 partial sums add up to the sum over rows 0 to 2047. -/
theorem lo_sum :
    ∑ l : Fin 128, k0_pay9 (F := Ideal) (k0_pay7 x1 (loRows x0)) (k0_pay8 x1 (loRows x0)) (ix2 0 l)
      = ∑ r : Fin 2048, near1 x0 x1 (⟨r.val, by omega⟩ : Fin 4096) := by
  have h7 : ∀ l : Fin 256, k0_pay7 (F := Ideal) x1 (loRows x0) (ix2 0 l)
      = ∑ k : Fin 8, near1 x0 x1 (⟨l.val + 256 * k.val, by omega⟩ : Fin 4096) := by
    intro l
    rw [pay7_apply]
    refine Finset.sum_congr rfl fun k _ => ?_
    simp only [lo_acc]
  simp only [pay9_apply, pay8_apply]
  rw [← Cert.Halving.sum_halve 128 (fun l : Fin (2 * 128) => k0_pay7 (F := Ideal) x1 (loRows x0) (ix2 0 (l : Fin 256)))]
  rw [Cert.Halving.sum_strided 8 256 (fun r : Fin (8 * 256) => near1 x0 x1 (⟨r.val, by omega⟩ : Fin 4096))]
  exact Finset.sum_congr rfl fun l _ => h7 l

/-- The upper half's row minima, clamped and summed, are the sum over rows 2048 to 4095. -/
theorem hi_sum :
    (∑ r : Fin 2048, max (Finset.univ.inf fun j : Fin 128 =>
        k0_pay12 (F := Ideal) (k0_pay4 x1) (k0_pay5 x1) (hiRows x0) (ix2 j r)) 0)
      = ∑ r : Fin 2048, near1 x0 x1 (⟨r.val + 2048, by omega⟩ : Fin 4096) := by
  refine Finset.sum_congr rfl fun r _ => ?_
  rw [pay12_inf]
  simp only [hi_acc]

/-- The least over all 4096 rows, from the two halves' column minima. -/
theorem col_min (m : Fin 4096) :
    min (k0_pay10 (F := Ideal) (k0_pay6 x1 (loRows x0)) (ix2 0 m))
        (Finset.univ.inf fun r : Fin 2048 => k0_pay11 (F := Ideal) (k0_pay4 x1) (k0_pay5 x1) (hiRows x0) (ix2 r m))
      = Finset.univ.inf fun n : Fin 4096 => accK (ptsU x0) (ptsW x1) n m := by
  rw [pay10_apply]
  simp only [lo_acc, hi_acc]
  rw [Cert.Halving.inf_halve 2048 (fun n : Fin (2 * 2048) => accK (ptsU x0) (ptsW x1) (n : Fin 4096) m), ← Finset.inf_inf]
  rfl

/-- One grid point's contribution is the batch's term of the kernel's total. -/
theorem pointPay_eq :
    pointPay (F := Ideal) x0 x1 (ix2 0 0) = pointK (N := 4096) (M := 4096) (ptsU x0) (ptsW x1) := by
  unfold pointPay pointK
  rw [pay1_apply, pay13_apply, pay14_apply, lo_sum, hi_sum]
  refine congrArg₂ (· + ·) (congrArg (· * invN) ?_) (congrArg₂ (· * ·) ?_ rfl)
  · rw [Cert.Halving.sum_halve 2048 (fun n : Fin (2 * 2048) => near1 x0 x1 (n : Fin 4096)), Finset.sum_add_distrib]
  · exact Finset.sum_congr rfl fun m _ => by rw [col_min]

end

end Cert.KernelIdeal.PayValue

end
-- ==== Proof.KIValue.lean ====
/-
  The idealized kernel's result as a function of the two argument arrays.

  Grid point `b` reads batch `b` of the first cloud and batch `b` of the second cloud transposed and
  scaled by -2 (the host multiplies the transposed array by the broadcast literal before the region);
  the output's one element accumulates the four points' contributions in grid order and is written
  back after the last point; the host then drops the unit axes.
-/
import proofs.«145196_g5248450036648_cont_9to1_m_1041_38_alg».proof.Proof.KIPoint
import Idealize.ShloMosaic.Lib.StableHlo.Run

set_option maxRecDepth 16384

noncomputable section

open scoped BigOperators

namespace Cert.KernelIdeal.ArrValue

open Idealize.ShloMosaic Idealize.ShloMosaic.ValueIdx Idealize.ShloMosaic.TcCoe Idealize.SL.Sem
open Cert.KernelIdeal Cert.KernelIdeal.Gen Cert.KernelIdeal.Body Cert.KernelIdeal.PayValue Cert.Chamfer
open Idealize.ShloMosaic.Pipeline (Dat)

variable (m : (ℓ : Loc nD τ sig) → Buf (Elt Ideal) ℓ) (ρ : Dev nD → PrngReg)

/-! ## The arrays the region finds -/

/-- The first cloud, as launched. -/
abbrev arrA (c : Dev nD) : Vec Ideal S4x4096x3 .f32 := m ((c : Thread nD τ).loc main_arg0)
/-- The second cloud, as launched. -/
abbrev arrX (c : Dev nD) : Vec Ideal S4x4096x3 .f32 := m ((c : Thread nD τ).loc main_arg1)

/-- The second window's array is the second cloud transposed and multiplied by the broadcast literal. -/
theorem scaled_eq (c : Dev nD) :
    (V m c main_v2 : S4x3x4096.Idx → EReal)
      = mulf (broadcastInDim S4x3x4096 ![] bcast_S_S4x3x4096 (constant (F := Ideal) S_ .f32 0xC0000000#32))
          (transpose S4x3x4096 [0, 2, 1] (arrX m c) transposes_S4x4096x3_S4x3x4096_0_2_1) := by
  show StableHlo.after hostOps0 (fun b => m (c, b)) (Proc.devRef .tc main_v2) = _
  after_results

/-- Entry `(b, d, k)` of it is `-2` times entry `(b, k, d)` of the second cloud. -/
theorem scaled_apply (c : Dev nD) (b : Fin 4) (d : Fin 3) (k : Fin 4096) :
    (V m c main_v2 : S4x3x4096.Idx → EReal) (ix3 b d k) = negTwo * arrX m c (ix3 b k d) := by
  rw [scaled_eq]
  show _ * _ = _
  refine congrArg₂ (· * ·) rfl ?_
  exact transpose_apply _ _ _ _ (ix3 b k d) (fun a => by match a with | ⟨0, _⟩ => rfl | ⟨1, _⟩ => rfl | ⟨2, _⟩ => rfl)

/-! ## The blocks the body reads -/

/-- The printed index maps: at point `t` both inputs take block `t` along the batch axis. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The first input's block at point `t`, and the second's, typed by their literal shapes. -/
abbrev blkA (c : Dev nD) (t : Fin cfg0.N) : Vec Ideal S1x4096x3 .f32 := iblk m c 0 t
abbrev blkW (c : Dev nD) (t : Fin cfg0.N) : Vec Ideal S1x3x4096 .f32 := iblk m c 1 t

theorem blkA_apply (c : Dev nD) (t : Fin cfg0.N) (n : Fin 4096) (d : Fin 3) :
    blkA m c t (ix3 0 n d) = arrA m c (ix3 (⟨t.val, lt_of_lt_of_eq t.isLt N_0⟩ : Fin 4) n d) := by
  obtain ⟨e0, e1, e2, -⟩ := index_facts t
  show V m c main_arg0 (((cfg0.win 0).blk t).view.emb (ix3 0 n d)) = _
  rw [V_main_arg0]
  refine congrArg (arrA m c) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 3 + 1 * d.val = d.val; omega

theorem blkW_apply (c : Dev nD) (t : Fin cfg0.N) (d : Fin 3) (k : Fin 4096) :
    blkW m c t (ix3 0 d k) = negTwo * arrX m c (ix3 (⟨t.val, lt_of_lt_of_eq t.isLt N_0⟩ : Fin 4) k d) := by
  obtain ⟨-, -, -, e0, e1, e2⟩ := index_facts t
  rw [← scaled_apply]
  show V m c main_v2 (((cfg0.win 1).blk t).view.emb (ix3 0 d k)) = _
  refine congrArg (V m c main_v2) (funext fun a => Fin.ext ?_)
  match a with
  | ⟨0, _⟩ => show win0_1.index t (0 : Fin 3) * 1 + 1 * 0 = t.val; omega
  | ⟨1, _⟩ => show win0_1.index t (1 : Fin 3) * 3 + 1 * d.val = d.val; omega
  | ⟨2, _⟩ => show win0_1.index t (2 : Fin 3) * 4096 + 1 * k.val = k.val; omega

/-! ## The running total -/

/-- The two clouds as families of points. -/
abbrev cloudA (c : Dev nD) : Fin 4 → Fin 4096 → Fin 3 → EReal := fun b n d => arrA m c (ix3 b n d)
abbrev cloudW (c : Dev nD) : Fin 4 → Fin 3 → Fin 4096 → EReal := fun b d k => negTwo * arrX m c (ix3 b k d)

/-- One point's contribution is its batch's term. -/
theorem point_eq (c : Dev nD) (t : Fin cfg0.N) :
    pointPay (F := Ideal) (blkA m c t) (blkW m c t) (ix2 0 0)
      = pointK (cloudA m c ⟨t.val, lt_of_lt_of_eq t.isLt N_0⟩) (cloudW m c ⟨t.val, lt_of_lt_of_eq t.isLt N_0⟩) := by
  rw [pointPay_eq]
  exact congrArg₂ pointK (funext fun n => funext fun d => blkA_apply m c t n d) (funext fun d => funext fun k => blkW_apply m c t d k)

/-- The shape casts between the one-element shapes, at their one index. -/
theorem cast3_apply (v : FVec Ideal S1x1 .f32) :
    shapeCast S1x1x1 v shapeCasts_S1x1_S1x1x1 (ix3 0 0 0) = v (ix2 0 0) :=
  shapeCast_apply _ _ _ _ rfl
theorem cast2_apply (v : Vec Ideal S1x1x1 .f32) :
    shapeCast S1x1 v shapeCasts_S1x1x1_S1x1 (ix2 0 0) = v (ix3 0 0 0) :=
  shapeCast_apply _ _ _ _ rfl

/-- Batch `b`'s term of the kernel's total. -/
abbrev contrib (c : Dev nD) (b : Fin 4) : EReal := pointK (cloudA m c b) (cloudW m c b)

/-- After the first point the block holds the first batch's term. -/
theorem total_zero (c : Dev nD) (hn : 0 < cfg0.N) : totalAt m c 0 hn (ix3 0 0 0) = contrib m c 0 := by
  have e := totalAt_first m c ⟨0, hn⟩ rfl ((condFirst_iff _).mpr rfl)
    (fun h => absurd ((condRest_iff _).mp h) (Nat.not_succ_le_zero 0))
  rw [show totalAt m c 0 hn = _ from e, outFirst_eq, cast3_apply]
  exact point_eq m c ⟨0, hn⟩

/-- After each later point it holds what it held plus that batch's term. -/
theorem total_succ (c : Dev nD) (n : ℕ) (hn : n + 1 < cfg0.N) :
    totalAt m c (n + 1) hn (ix3 0 0 0)
      = totalAt m c n (Nat.lt_of_succ_lt hn) (ix3 0 0 0) + contrib m c ⟨n + 1, lt_of_lt_of_eq hn N_0⟩ := by
  have hN : n + 1 < 4 := lt_of_lt_of_eq hn N_0
  have e := totalAt_rest m c ⟨n + 1, hn⟩ (Nat.succ_ne_zero n)
    (fun h => by have := (condFirst_iff _).mp h; dsimp only at this; omega)
    ((condRest_iff _).mpr (Nat.succ_le_succ (Nat.zero_le n)))
  rw [show totalAt m c (n + 1) hn = _ from e, outRest_eq, cast3_apply]
  show shapeCast S1x1 _ _ (ix2 0 0) + pointPay _ _ (ix2 0 0) = _
  rw [cast2_apply]
  exact congrArg₂ (· + ·) rfl (point_eq m c ⟨n + 1, hn⟩)

/-- After the last point it holds the kernel's total. -/
theorem total_last (c : Dev nD) (h3 : 3 < cfg0.N) :
    totalAt m c 3 h3 (ix3 0 0 0) = totalK (cloudA m c) (cloudW m c) := by
  rw [total_succ m c 2, total_succ m c 1, total_succ m c 0, total_zero]
  rfl

/-! ## The output array after the run, and the result -/

/-- A shape all of whose extents are one has one index. -/
theorem idx_unique {S : Shape} (h : ∀ a, S.size a = 1) (y y' : S.Idx) : y = y' :=
  funext fun a => Fin.ext (by have h1 := (y a).isLt; have h2 := (y' a).isLt; have h3 := h a; omega)

/-- The output's index map is constantly the first block. -/
theorem out_index : ∀ t : Fin cfg0.N,
    win0_2.index t (0 : Fin 3) = 0 ∧ win0_2.index t (1 : Fin 3) = 0 ∧ win0_2.index t (2 : Fin 3) = 0 :=
  (by decide +kernel : ∀ t : Fin grid0.N, _)

/-- Every point's output block is the whole one-element array. -/
theorem mem_blk_out (t : Fin cfg0.N) (i : S1x1x1.Idx) : i ∈ ((cfg0.win 2).blk t).view.set := by
  show i ∈ ((View.whole main_v3).slice (win0_2.rect t)).set
  rw [View.set_slice_whole, Rect.mem_set_unit]
  obtain ⟨e0, e1, e2⟩ := out_index t
  intro a
  match a with
  | ⟨0, _⟩ =>
    show win0_2.index t (0 : Fin 3) * 1 ≤ (i 0).val ∧ (i 0).val < win0_2.index t (0 : Fin 3) * 1 + 1
    have hi : (i 0).val < 1 := (i 0).isLt
    omega
  | ⟨1, _⟩ =>
    show win0_2.index t (1 : Fin 3) * 1 ≤ (i 1).val ∧ (i 1).val < win0_2.index t (1 : Fin 3) * 1 + 1
    have hi : (i 1).val < 1 := (i 1).isLt
    omega
  | ⟨2, _⟩ =>
    show win0_2.index t (2 : Fin 3) * 1 ≤ (i 2).val ∧ (i 2).val < win0_2.index t (2 : Fin 3) * 1 + 1
    have hi : (i 2).val < 1 := (i 2).isLt
    omega

/-- The one-element output array ends holding the kernel's total. -/
theorem final_arr (c : Dev nD) :
    (dats m 0 c).arrAt 2 cfg0.N = (fun _ => totalK (cloudA m c) (cloudW m c) : S1x1x1.Idx → EReal) := by
  refine (dats m 0 c).arrAt_eq_of_cover 2 _ (fun t hf => ?_) (fun i => ?_)
  · have ht : t.val = 3 := by
      have h1 := (flush0_2 t).mp hf; have h2 := lt_of_lt_of_eq t.isLt N_0; omega
    obtain ⟨n, hn⟩ := t
    dsimp only at ht
    subst ht
    funext y
    show (dats m 0 c).after 2 ⟨3, hn⟩ y = _
    rw [after2]
    refine (congrArg (totalAt m c 3 hn) (idx_unique (S := S1x1x1) (fun a => by fin_cases a <;> rfl) y (ix3 0 0 0))).trans ?_
    exact (total_last m c hn).trans rfl
  · exact ⟨⟨3, by have h4 : cfg0.N = 4 := N_0; omega⟩, (flush0_2 _).mpr rfl, mem_blk_out _ i⟩

/-- The host's final reshape reads that one element. -/
theorem result_eq (c : Dev nD) :
    Pipeline.afterTail₀ cfgs (dats m) 0 (V0 m) [hostOps1] c main_v4
      = (fun _ => totalK (cloudA m c) (cloudW m c) : S_.Idx → EReal) := by
  unfold Pipeline.afterTail₀
  show StableHlo.after hostOps1 _ (Proc.devRef .tc main_v4) = _
  after_results
  funext i
  show shapeCast S_ (Pipeline.withArrays spec0 c (V0 m c) (fun w => (dats m 0 c).arrAt w cfg0.N) (Proc.devRef .tc main_v3))
    shapeCasts_S1x1x1_S_ i = _
  rw [show Pipeline.withArrays spec0 c (V0 m c) (fun w => (dats m 0 c).arrAt w cfg0.N) (Proc.devRef .tc main_v3)
      = (dats m 0 c).arrAt 2 cfg0.N from Pipeline.withArrays_arr spec0 launch0.win.arr_inj c _ _ 2, final_arr]
  rfl

/-! ## The run, read -/

/-- Every weakly fair execution of the idealized kernel's program terminates with its result at the kernel's
    total of the two argument arrays, and the arguments unchanged. -/
theorem run : θ_run defs (onTc (τ := τ) (main (F := Ideal))) ⟨m, fun _ => 0, ρ⟩ fun r => ∀ c : Dev nD,
      r.2.mem ((c.tc : Thread nD τ).loc main_v4) = (fun _ => totalK (cloudA m c) (cloudW m c) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.ArrValue

end
-- ==== Proof.RefRead.lean ====
/-
  The reference's result, read as the two scaled sums of clamped nearest squared distances.
-/
import proofs.«145196_g5248450036648_cont_9to1_m_1041_38_alg».proof.Proof.Gen.ReferenceIdeal.Run
import proofs.«145196_g5248450036648_cont_9to1_m_1041_38_alg».proof.Proof.Gen.ReferenceIdeal.Read
import proofs.«145196_g5248450036648_cont_9to1_m_1041_38_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx Cert.ReferenceIdeal Cert.ReferenceIdeal.Gen Cert.ReferenceIdeal.Read Cert.Chamfer

/-- The squared norm of a point of the first cloud. -/
private theorem v1_at (a : (⟨S4x4096x3, .f32⟩ : BufTy).Contents (Elt Ideal)) (b : Fin 4) (n : Fin 4096) :
    val_main_v1 (F := Ideal) a (ix2 b n) = (0 : EReal) + ∑ d : Fin 3, a (ix3 b n d) * a (ix3 b n d) := by
  rw [val_main_v1_apply, val_main_cst_apply]
  refine congrArg₂ (· + ·) Ideal.ofBits_zero_f32 (Finset.sum_congr rfl fun d _ => ?_)
  rw [val_main_v0_apply]
  have e : idx_main_v1 (ix2 b n) d = ix3 b n d :=
    funext fun c => Fin.ext (by match c with | ⟨0, _⟩ => rfl | ⟨1, _⟩ => rfl | ⟨2, _⟩ => rfl)
  rw [e]
  rfl

/-- The squared norm of a point of the second cloud. -/
private theorem v3_at (x : (⟨S4x4096x3, .f32⟩ : BufTy).Contents (Elt Ideal)) (b : Fin 4) (m : Fin 4096) :
    val_main_v3 (F := Ideal) x (ix2 b m) = (0 : EReal) + ∑ d : Fin 3, x (ix3 b m d) * x (ix3 b m d) := by
  rw [val_main_v3_apply, val_main_cst_0_apply]
  refine congrArg₂ (· + ·) Ideal.ofBits_zero_f32 (Finset.sum_congr rfl fun d _ => ?_)
  rw [val_main_v2_apply]
  have e : idx_main_v3 (ix2 b m) d = ix3 b m d :=
    funext fun c => Fin.ext (by match c with | ⟨0, _⟩ => rfl | ⟨1, _⟩ => rfl | ⟨2, _⟩ => rfl)
  rw [e]
  rfl

/-- The inner product of a point of the first cloud with a point of the second. -/
private theorem v4_at (a x : (⟨S4x4096x3, .f32⟩ : BufTy).Contents (Elt Ideal)) (b : Fin 4) (n m : Fin 4096) :
    val_main_v4 (F := Ideal) a x (ix3 b n m) = ∑ d : Fin 3, a (ix3 b n d) * x (ix3 b m d) := by
  rw [val_main_v4_apply]
  refine Finset.sum_congr rfl fun d _ => ?_
  have el : lidx_main_v4 (ix3 b n m) d = ix3 b n d :=
    funext fun c => Fin.ext (by match c with | ⟨0, _⟩ => rfl | ⟨1, _⟩ => rfl | ⟨2, _⟩ => rfl)
  have er : ridx_main_v4 (ix3 b n m) d = ix3 b m d :=
    funext fun c => Fin.ext (by match c with | ⟨0, _⟩ => rfl | ⟨1, _⟩ => rfl | ⟨2, _⟩ => rfl)
  rw [el, er]

/-- The first cloud's squared norms, broadcast along the second cloud's axis. -/
private theorem v7_at (a : (⟨S4x4096x3, .f32⟩ : BufTy).Contents (Elt Ideal)) (b : Fin 4) (n m : Fin 4096) :
    val_main_v7 (F := Ideal) a (ix3 b n m) = (0 : EReal) + ∑ d : Fin 3, a (ix3 b n d) * a (ix3 b n d) := by
  rw [val_main_v7_apply, val_main_v5_apply]
  have e : idx_main_v5 (idx_main_v7 (ix3 b n m)) = ix2 b n :=
    funext fun c => Fin.ext (by match c with | ⟨0, _⟩ => rfl | ⟨1, _⟩ => rfl)
  rw [e]
  exact v1_at a b n

/-- The second cloud's squared norms, broadcast along the first cloud's axis. -/
private theorem v8_at (x : (⟨S4x4096x3, .f32⟩ : BufTy).Contents (Elt Ideal)) (b : Fin 4) (n m : Fin 4096) :
    val_main_v8 (F := Ideal) x (ix3 b n m) = (0 : EReal) + ∑ d : Fin 3, x (ix3 b m d) * x (ix3 b m d) := by
  rw [val_main_v8_apply, val_main_v6_apply]
  have e : idx_main_v6 (idx_main_v8 (ix3 b n m)) = ix2 b m :=
    funext fun c => Fin.ext (by match c with | ⟨0, _⟩ => rfl | ⟨1, _⟩ => rfl)
  rw [e]
  exact v3_at x b m

/-- The clamped squared distance between a point of the first cloud and a point of the second. -/
private theorem v14_at (a x : (⟨S4x4096x3, .f32⟩ : BufTy).Contents (Elt Ideal)) (b : Fin 4) (n m : Fin 4096) :
    val_main_v14 (F := Ideal) a x (ix3 b n m)
      = distR (N := 4096) (M := 4096) (fun b n d => a (ix3 b n d)) (fun b m d => x (ix3 b m d)) b n m := by
  rw [val_main_v14_apply, val_main_v12_apply, val_main_v9_apply, val_main_v11_apply, val_main_v13_apply,
    val_main_cst_2_apply, val_main_v10_apply, val_main_cst_1_apply, v7_at, v8_at, v4_at]
  show max (_ - Ideal.ofBits .f32 0x40000000#32 * _) (Ideal.ofBits .f32 0x00000000#32) = _
  rw [Ideal.ofBits_zero_f32]
  rfl

/-- A fold of the binary minimum from the top element is the infimum. -/
private theorem fold_min_top {ι : Type} (s : Finset ι) (f : ι → EReal) :
    s.fold (FloatOps.minimumf (F := Ideal) (φ := .f32)) (Ideal.ofBits .f32 0x7F800000#32) f = s.inf f := by
  rw [inf_eq_top]
  rfl

/-- The nearest clamped squared distance from a point of the first cloud to the second cloud. -/
private theorem v15_at (a x : (⟨S4x4096x3, .f32⟩ : BufTy).Contents (Elt Ideal)) (b : Fin 4) (n : Fin 4096) :
    val_main_v15 (F := Ideal) a x (ix2 b n)
      = Finset.univ.inf fun m : Fin 4096 =>
          distR (N := 4096) (M := 4096) (fun b n d => a (ix3 b n d)) (fun b m d => x (ix3 b m d)) b n m := by
  have h : S4x4096x4096.Reduces [2] S4x4096 := by decide
  unfold val_main_v15
  rw [Host.reduce_eq_fold_single FloatOps.minimumf _ _ reducesTo_S4x4096x4096_S4x4096_d2 h h_S_ (ix2 b n),
    val_main_cst_3_apply]
  refine (fold_min_top _ _).trans (Finset.inf_congr rfl fun m _ => ?_)
  have e : h.lift (ix2 b n) m = ix3 b n m :=
    funext fun c => Fin.ext (by match c with | ⟨0, _⟩ => rfl | ⟨1, _⟩ => rfl | ⟨2, _⟩ => rfl)
  show val_main_v14 (F := Ideal) a x (h.lift (ix2 b n) m) = _
  rw [e]
  exact v14_at a x b n m

/-- The nearest clamped squared distance from a point of the second cloud to the first cloud. -/
private theorem v16_at (a x : (⟨S4x4096x3, .f32⟩ : BufTy).Contents (Elt Ideal)) (b : Fin 4) (m : Fin 4096) :
    val_main_v16 (F := Ideal) a x (ix2 b m)
      = Finset.univ.inf fun n : Fin 4096 =>
          distR (N := 4096) (M := 4096) (fun b n d => a (ix3 b n d)) (fun b m d => x (ix3 b m d)) b n m := by
  have h : S4x4096x4096.Reduces [1] S4x4096 := by decide
  unfold val_main_v16
  rw [Host.reduce_eq_fold_single FloatOps.minimumf _ _ reducesTo_S4x4096x4096_S4x4096_d1 h h_S_ (ix2 b m),
    val_main_cst_4_apply]
  refine (fold_min_top _ _).trans (Finset.inf_congr rfl fun n _ => ?_)
  have e : h.lift (ix2 b m) n = ix3 b n m :=
    funext fun c => Fin.ext (by match c with | ⟨0, _⟩ => rfl | ⟨1, _⟩ => rfl | ⟨2, _⟩ => rfl)
  show val_main_v14 (F := Ideal) a x (h.lift (ix2 b m) n) = _
  rw [e]
  exact v14_at a x b n m

/-- The reference's one result is the mean over the first cloud's points of the clamped nearest squared
    distance, plus the mean over the second cloud's points. -/
theorem result_eq (a x : (⟨S4x4096x3, .f32⟩ : BufTy).Contents (Elt Ideal)) :
    val_main_v21 (F := Ideal) a x ix0
      = totalR (N := 4096) (M := 4096) (fun b n d => a (ix3 b n d)) (fun b m d => x (ix3 b m d)) := by
  rw [val_main_v21_apply, val_main_v18_apply, val_main_v20_apply, val_main_v17_apply, val_main_v19_apply,
    val_main_cst_5_apply, val_main_cst_6_apply, val_main_cst_7_apply, val_main_cst_8_apply,
    sum_idx2, sum_idx2]
  -- each entry of the two arrays of nearest distances is the infimum the specification names
  have e1 : (∑ b : Fin 4, ∑ n : Fin 4096, val_main_v15 (F := Ideal) a x (ix2 b n))
      = ∑ b : Fin 4, ∑ n : Fin 4096, Finset.univ.inf fun m : Fin 4096 =>
          distR (N := 4096) (M := 4096) (fun b n d => a (ix3 b n d)) (fun b m d => x (ix3 b m d)) b n m :=
    Finset.sum_congr rfl fun b _ => Finset.sum_congr rfl fun n _ => v15_at a x b n
  have e2 : (∑ b : Fin 4, ∑ m : Fin 4096, val_main_v16 (F := Ideal) a x (ix2 b m))
      = ∑ b : Fin 4, ∑ m : Fin 4096, Finset.univ.inf fun n : Fin 4096 =>
          distR (N := 4096) (M := 4096) (fun b n d => a (ix3 b n d)) (fun b m d => x (ix3 b m d)) b n m :=
    Finset.sum_congr rfl fun b _ => Finset.sum_congr rfl fun m _ => v16_at a x b m
  rw [e1, e2]
  show Ideal.div (Ideal.ofBits .f32 0x00000000#32 + _) _ + Ideal.div (Ideal.ofBits .f32 0x00000000#32 + _) _ = _
  rw [Ideal.ofBits_zero_f32]
  rfl

end Cert.ReferenceIdeal.RefValue

end
-- ==== Proof.Finite.lean ====
/-
  The precondition says every entry of both inputs is a real number.
-/
import proofs.«145196_g5248450036648_cont_9to1_m_1041_38_alg».proof.Pre_finite_inputs
import proofs.«145196_g5248450036648_cont_9to1_m_1041_38_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

set_option maxRecDepth 16384

noncomputable section

namespace Cert.Finite

open Idealize.ShloMosaic Idealize.ShloMosaic.ValueIdx

/-- The shape of rank zero has one index. -/
private instance subsingleton_scalar_idx : Subsingleton Cert.Pre_finite_inputs.S_.Idx :=
  ⟨fun a b => funext fun d => d.elim0⟩

/-- The f32 pattern `0x7F800000` denotes `+∞`. -/
private theorem ofBits_inf : Ideal.ofBits .f32 0x7F800000#32 = (⊤ : EReal) := by
  simp [Ideal.ofBits, Ideal.ieee]

/-- An extended real whose absolute value `max v (-v)` lies below `⊤` is a real number: at `⊥` the negation
    is `⊤`, at `⊤` the value itself is. -/
private theorem real_of_abs_lt_top (v : EReal) (hv : max v (-v) < ⊤) : ∃ r : ℝ, v = (r : EReal) := by
  induction v using EReal.rec with
  | bot => exact absurd hv (by simp)
  | top => exact absurd hv (by simp)
  | coe r => exact ⟨r, rfl⟩

/-- One entry: if the word of the comparison `|v| < +∞` is 1, the entry is a real number. -/
private theorem real_of_word (v : Ideal .f32)
    (hw : FloatOps.cmpf .olt (FloatOps.hostAbsf v) (FloatOps.ofBits (F := Ideal) .f32 0x7F800000#32) = 1#1) :
    ∃ r : ℝ, v = ((r : ℝ) : EReal) := by
  have hw' : Ideal.cmp .olt (max (v : EReal) (-(v : EReal))) (Ideal.ofBits .f32 0x7F800000#32) = 1#1 := hw
  rw [ofBits_inf] at hw'
  unfold Ideal.cmp at hw'
  by_cases hlt : max (v : EReal) (-(v : EReal)) < ⊤
  · exact real_of_abs_lt_top v hlt
  · simp [hlt] at hw'

/-- If the printed finiteness predicate holds of two arrays at the ideal instance, each is the coercion of a
    real-valued array. -/
theorem real_of_pre [Cert.Pre_finite_inputs.Facts] (a x : FVec Ideal Cert.Pre_finite_inputs.S4x4096x3 .f32)
    (h : Cert.Pre_finite_inputs.fn (F := Ideal) a x = fun _ => 1#1) :
    (∃ a' : Cert.Pre_finite_inputs.S4x4096x3.Idx → ℝ, a = fun i => ((a' i : ℝ) : EReal))
      ∧ (∃ x' : Cert.Pre_finite_inputs.S4x4096x3.Idx → ℝ, x = fun i => ((x' i : ℝ) : EReal)) := by
  -- the predicate's one word is the conjunction of the two reductions by `and`
  have h0 := congrFun h ValueIdx.ix0
  dsimp only [Cert.Pre_finite_inputs.fn] at h0
  obtain ⟨h1, h2⟩ := IntOp.andi_eq_one.1 h0
  -- each reduction over all axes being 1, every comparison word is 1, so every entry is real
  have ha : ∀ i, ∃ r : ℝ, a i = ((r : ℝ) : EReal) := fun i =>
    real_of_word (a i) (Host.reduce_andi_all _ _ _ _ _ h1 i)
  have hx : ∀ i, ∃ r : ℝ, x i = ((r : ℝ) : EReal) := fun i =>
    real_of_word (x i) (Host.reduce_andi_all _ _ _ _ _ h2 i)
  choose a' ha' using ha
  choose x' hx' using hx
  exact ⟨⟨a', funext ha'⟩, ⟨x', funext hx'⟩⟩

end Cert.Finite

end
-- ==== Proof.lean ====
/-
  The certificate: the chamfer-distance kernel (one grid point per batch, the one-element output
  accumulated across the grid) computes, over the extended reals and on finite inputs, what the
  reference computes.

  Frames.  Each program terminates without a fault and leaves its arguments unchanged: for the two
  kernel programs by running the body symbolically at a grid point in each of its two cases (store the
  point's contribution / add it to the running total) and launching it over the grid; for the reference
  by its run as a sequence of host operations.

  Values.  At grid point `b` the kernel forms the squared-distance matrix
  `(|a_n|² + ¼|w_m|²) + a_n·w_m` with `w = -2 x`, takes row minima (by halving the columns down to 128
  lanes, transposing and reducing the lanes) and column minima (by halving the rows down to 8 and
  reducing them), clamps at zero, sums, and scales by 2⁻¹⁴; the four points' contributions are added.
  The reference clamps `|a_n|² + |x_m|² - 2 a_n·x_m` at zero, takes minima along either axis, and divides
  the two total sums by 16384.  On real inputs the two distance matrices agree entry by entry, clamping
  commutes with a minimum, all summands are non-negative so the scale distributes over the sums, and
  division by 16384 is multiplication by 2⁻¹⁴.
-/
import proofs.«145196_g5248450036648_cont_9to1_m_1041_38_alg».proof.Defs
import proofs.«145196_g5248450036648_cont_9to1_m_1041_38_alg».proof.Proof.Gen.Kernel
import proofs.«145196_g5248450036648_cont_9to1_m_1041_38_alg».proof.Proof.Gen.KernelIdeal
import proofs.«145196_g5248450036648_cont_9to1_m_1041_38_alg».proof.Proof.Gen.ReferenceIdeal
import proofs.«145196_g5248450036648_cont_9to1_m_1041_38_alg».proof.Proof.Gen.Pre_finite_inputs
import proofs.«145196_g5248450036648_cont_9to1_m_1041_38_alg».proof.Proof.KFrame
import proofs.«145196_g5248450036648_cont_9to1_m_1041_38_alg».proof.Proof.KIValue
import proofs.«145196_g5248450036648_cont_9to1_m_1041_38_alg».proof.Proof.RefRead
import proofs.«145196_g5248450036648_cont_9to1_m_1041_38_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem Cert.Chamfer

/-- The printed kernel runs and keeps its arguments. -/
theorem frame_k : Cert.frame_Kernel := fun m ρ _ => Cert.Kernel.Body.frame m ρ

/-- The idealized kernel runs and keeps its arguments. -/
theorem frame_ki : Cert.frame_KernelIdeal := fun m ρ _ => Cert.KernelIdeal.Body.frame m ρ

/-- The reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- For arrays of real numbers, the reference's reading of the two clouds and the kernel's reading of the first
    cloud and of the second transposed and scaled give the same number. -/
theorem total_of_real (A X : (⟨3, ![4, 4096, 3]⟩ : Shape).Idx → EReal)
    (hA : ∃ a' : (⟨3, ![4, 4096, 3]⟩ : Shape).Idx → ℝ, A = fun i => ((a' i : ℝ) : EReal))
    (hX : ∃ x' : (⟨3, ![4, 4096, 3]⟩ : Shape).Idx → ℝ, X = fun i => ((x' i : ℝ) : EReal)) :
    totalR (N := 4096) (M := 4096) (fun b n d => A (ix3 b n d)) (fun b k d => X (ix3 b k d))
      = totalK (N := 4096) (M := 4096) (fun b n d => A (ix3 b n d)) (fun b d k => negTwo * X (ix3 b k d)) := by
  obtain ⟨a', rfl⟩ := hA
  obtain ⟨x', rfl⟩ := hX
  exact (totalK_eq_totalR (fun b n d => a' (ix3 b n d)) (fun b k d => x' (ix3 b k d))).symm

/-- On finite inputs the kernel's total is the reference's result. -/
theorem algebraic : Cert.algebraic_KernelIdeal_ReferenceIdeal := by
  intro m ρ m' ρ' hpre hagree
  refine ⟨fun c => (fun _ => totalK (Cert.KernelIdeal.ArrValue.cloudA m c) (Cert.KernelIdeal.ArrValue.cloudW m c)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _).trans ?_
  refine (congrArg₂ (Cert.ReferenceIdeal.Read.val_main_v21 (F := Ideal)) (hagree c).1 (hagree c).2).trans ?_
  funext i
  rw [eq_ix0 i, Cert.ReferenceIdeal.RefValue.result_eq]
  obtain ⟨hA, hX⟩ := Cert.Finite.real_of_pre _ _ (hpre c)
  exact total_of_real _ _ hA hX

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
